-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg5 : FVec F S128 .f32) (main_arg6 : FVec F S128x41 .f32) (main_arg7 : FVec F S41 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x41 .f32 := Host.absf main_arg6
  let main_cst_8 : FVec F S_ .f32 := constant S_ .f32 0x7F800000#32
  let main_v25 : FVec F S128x41 .f32 := broadcastInDim S128x41 ![] bcast_S_S128x41 main_cst_8
  let main_v26 : IVec S128x41 1 := cmpf .olt main_v24 main_v25
  let main_c_9 : IVec S_ 1 := constantI S_ 1 1#1
  let main_v27 : IVec S_ 1 := (fun x v => Host.reduce IntOp.andi x v reducesTo_S128x41_S_d0_1 h_S_) main_v26 main_c_9
  let main_v28 : IVec S_ 1 := andi main_v23 main_v27
  let main_v29 : FVec F S41 .f32 := Host.absf main_arg7
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x41 .f32) (main_arg7 : FVec F S41 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x41 : Shape := ⟨2, ![100000, 41]⟩
abbrev S5000x41 : Shape := ⟨2, ![5000, 41]⟩
abbrev S1x41 : Shape := ⟨2, ![1, 41]⟩
abbrev S5000 : Shape := ⟨1, ![5000]⟩
abbrev S5000x1 : Shape := ⟨2, ![5000, 1]⟩

abbrev nBuf : Space → Nat
  | .hbm => 87
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x41, .f32⟩
  | .hbm, ⟨7, _⟩ => ⟨S41, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S100000x41, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S128x41, .f32⟩
  | .local _ .vmem, ⟨19, _⟩ => ⟨S41, .f32⟩
  | .local _ .vmem, ⟨20, _⟩ => ⟨S5000x41, .f32⟩
  | .local _ .vmem, ⟨21, _⟩ => ⟨S5000x41, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46_0 : Ref sig .tc := ⟨.hbm, 68, rfl⟩
abbrev main_v46_1 : Ref sig .tc := ⟨.hbm, 69, rfl⟩
abbrev main_c_10 : Ref sig .tc := ⟨.hbm, 70, rfl⟩
abbrev main_v47 : Ref sig .tc := ⟨.hbm, 71, rfl⟩
abbrev main_v48 : Ref sig .tc := ⟨.hbm, 72, rfl⟩
abbrev main_c_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x41 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S41 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x41 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x41_S128x41_0_0 : ∀ a, (![0, 0] : Fin 2 → Nat) a + S128x41.size a ≤ S128x41.size a
  h_S128x41 : 0 < S128x41.numel
  inb_S41_S41_0 : ∀ a, (![0] : Fin 1 → Nat) a + S41.size a ≤ S41.size a
  h_S41 : 0 < S41.numel
  shapeCasts_S41_S1x41 : S41.ShapeCasts S1x41
  broadcasts_S1x41_S5000x41 : S1x41.Broadcasts S5000x41
  reduces_S5000x41_S5000 : S5000x41.Reduces [1] S5000
  shapeCasts_S5000_S5000x1 : S5000.ShapeCasts S5000x1
  broadcasts_S5000x1_S5000x41 : S5000x1.Broadcasts S5000x41
  inb_S5000x41_S5000x41_0_0 : ∀ a, (![0, 0] : Fin 2 → Nat) a + S5000x41.size a ≤ S5000x41.size a
  h_S5000x41 : 0 < S5000x41.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x41_S5000x41_1_0_0_1_n_n_wf : DotDims.WF S5000x128 S128x41 S5000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x41.size a ≤ S128x41.size a
  hwx2_3 : ∀ i : grid2.Coords, EltTy.bits .f32 = 32 ∨ (Rect.block (s := S128x41) S128x41.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S41.size a ≤ S41.size a
  hwx2_4 : ∀ i : grid2.Coords, EltTy.bits .f32 = 32 ∨ (Rect.block (s := S41) S41.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x41.size a ≤ S100000x41.size a
  hwx2_5 : ∀ i : grid2.Coords, EltTy.bits .f32 = 32 ∨ (Rect.block (s := S100000x41) S5000x41.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x41_S5000x41_1_0_0_1_n_n : DotDims S5000x128 S128x41 S5000x41 where
  lhsContracting := [1]
  rhsContracting := [0]
  lhsNonContracting := [0]
  rhsNonContracting := [1]
  lhsBatch := []
  rhsBatch := []
  wf := dot_S5000x128_S128x41_S5000x41_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v46_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x41.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S41.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x41.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x41 : Shape := ⟨2, ![100000, 41]⟩
abbrev S1x41 : Shape := ⟨2, ![1, 41]⟩
abbrev S100000x1 : Shape := ⟨2, ![100000, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x41, .f32⟩
  | .hbm, ⟨7, _⟩ => ⟨S41, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x41, .f32⟩
  | .hbm, ⟨99, _⟩ => ⟨S1x41, .f32⟩
  | .hbm, ⟨100, _⟩ => ⟨S100000x41, .f32⟩
  | .hbm, ⟨101, _⟩ => ⟨S100000x41, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x41, .f32⟩
  | .hbm, ⟨109, _⟩ => ⟨S100000x41, .f32⟩
  | .hbm, ⟨110, _⟩ => ⟨S100000x41, .f32⟩
  | .hbm, ⟨111, _⟩ => ⟨S_, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x41, .f32⟩
  | .hbm, ⟨116, _⟩ => ⟨S100000x41, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call3_cst : Ref sig .tc := ⟨.hbm, 102, rfl⟩
abbrev main_call3_v0 : Ref sig .tc := ⟨.hbm, 103, rfl⟩
abbrev main_call3_cst_0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_cst_1 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_v73 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  reducesTo_S100000x41_S100000_d1 : S100000x41.ReducesTo [1] S100000
  h_S_ : 0 < S_.numel
  bcast_S100000_S100000x1_0 : S100000.BroadcastsInDim S100000x1 (![0] : Fin 1 → Fin S100000x1.rank)
  bcast_S100000x1_S100000x41_0_1 : S100000x1.BroadcastsInDim S100000x41 (![0, 1] : Fin 2 → Fin S100000x41.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x41_S100000x41_1_0_0_1_n_n_wf : DotDims.WF S100000x128 S128x41 S100000x41 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x41_S100000x41_1_0_0_1_n_n : DotDims S100000x128 S128x41 S100000x41 where
  lhsContracting := [1]
  rhsContracting := [0]
  lhsNonContracting := [0]
  rhsNonContracting := [1]
  lhsBatch := []
  rhsBatch := []
  wf := dot_S100000x128_S128x41_S100000x41_1_0_0_1_n_n_wf

class Facts : Prop extends Facts₀ where

variable [Facts]
-- ==== Proof.Region0.lean ====
/-
  Region 0 (the first dense product), read as a whole array.

  Grid point t of 20 stages rows 5000·t … 5000·t + 4999 of the node features and the whole weight matrix, and writes
  back the product of that row block with the weights. The blocks tile the 100000 rows, so after the region the
  output array is the reference's `dot_general` of the two arrays the region found: at row r and column q both are
  the sum over k < 256 of x[r, k] · w[k, q] (the kernel's narrowing of its operands to bf16 is the identity on the
  extended reals, and its accumulator starts at zero).
-/
import proofs.«153216_j91207925498527_1_alg».proof.Proof.Gen.KernelIdeal.Frame
import proofs.«153216_j91207925498527_1_alg».proof.Proof.RefRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat Cfg Window)
open Cert.ReferenceIdeal.ReadP (val_main_v32 val_main_v32_apply lidx_main_v32 ridx_main_v32)

/-! ## The block product at an index -/

/-- The body's loads and its store start at the origin of their staging buffers. -/
theorem origin2 : (![0, 0] : Fin 2 → Nat) = fun _ => 0 := funext fun a => by fin_cases a <;> rfl

/-- Row `j 0`, column `k` of a row block of the features. -/
abbrev lrow (j : S5000x128.Idx) (k : Fin 256) : S5000x256.Idx := fun a => match a with
  | ⟨0, _⟩ => ⟨(j 0).val, (j 0).isLt⟩
  | ⟨1, _⟩ => ⟨k.val, k.isLt⟩
/-- Row `k`, column `j 1` of the weights. -/
abbrev rcol (j : S5000x128.Idx) (k : Fin 256) : S256x128.Idx := fun a => match a with
  | ⟨0, _⟩ => ⟨k.val, k.isLt⟩
  | ⟨1, _⟩ => ⟨(j 1).val, (j 1).isLt⟩

/-- The left operand's row is the output's row, -/
theorem lhs_blk_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- its column the contraction index; -/
theorem lhs_blk_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- the right operand's row is the contraction index, -/
theorem rhs_blk_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- its column the output's column. -/
theorem rhs_blk_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's payload at row p, column q of its block: the sum over k < 256 of x[p, k] · w[k, q]. The narrowing of
    both operands is the identity on the extended reals and the accumulator is the zero splat. -/
theorem pay_apply (x0 : FVec Ideal S5000x256 .f32) (x1 : FVec Ideal S256x128 .f32) (j : S5000x128.Idx) :
    k0_pay1 (F := Ideal) x0 x1 j = ∑ k : Fin 256, x0 (lrow j k) * x1 (rcol j k) := by
  unfold k0_pay1
  refine (Ideal.matmul_constant_zero_apply dot_S5000x256_S256x128_S5000x128_1_0_0_1_n_n none _ _ j).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrow j k := funext fun a => Fin.ext (by
    match a with
    | ⟨0, _⟩ => exact lhs_blk_0 _ _
    | ⟨1, _⟩ => exact (lhs_blk_1 _ _).trans hk)
  have er : dot_S5000x256_S256x128_S5000x128_1_0_0_1_n_n.rhsIdx j ((ValueIdx.contrEquiv1 dot_S5000x256_S256x128_S5000x128_1_0_0_1_n_n 256 rfl rfl).symm k) = rcol j k := funext fun a => Fin.ext (by
    match a with
    | ⟨0, _⟩ => exact (rhs_blk_0 _ _).trans hk
    | ⟨1, _⟩ => exact rhs_blk_1 _ _)
  rw [el, er]
  rfl

/- the TensorCore's buffer contents when the region is entered -/
variable (V : (c : Dev nD) → (b : Ref sig .tc) → Buf (Elt Ideal) ((c : Thread nD τ).loc b))

/-! ## From blocks to the array -/

/-- The printed index maps, decided over the grid: the features' row block moves with the output's, whose block row
    is the point's number; every other block index is zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is block t of the reference's product of the arrays the region was entered with. -/
theorem flushed_eq (c : Dev nD) (t : Fin cfg0.N) :
    (dat0 (F := Ideal) V c).flushed 2 t
      = ((cfg0.win 2).blk t).view.read (Elt Ideal) (val_main_v32 (F := Ideal) (V c main_arg0) (V c main_arg2)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x128) origin2]
  obtain ⟨e0, e1, e2, e3, e4, e5⟩ := idx_facts t
  funext j
  show k0_pay1 (F := Ideal) (iblk0 V c 0 t) (iblk0 V c 1 t) j
    = val_main_v32 (F := Ideal) (V c main_arg0) (V c main_arg2) (((cfg0.win 2).blk t).view.emb j)
  rw [val_main_v32_apply]
  refine (pay_apply _ _ j).trans ?_
  refine Finset.sum_congr rfl fun k _ => ?_
  have h0 : iblk0 V c 0 t (lrow j k) = V c main_arg0 (lidx_main_v32 (((cfg0.win 2).blk t).view.emb j) k) := by
    show V c main_arg0 (((cfg0.win 0).blk t).view.emb (lrow j k)) = _
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 256 + 1 * k.val = k.val
      omega
  have h1 : iblk0 V c 1 t (rcol j k) = V c main_arg2 (ridx_main_v32 (((cfg0.win 2).blk t).view.emb j) k) := by
    show V c main_arg2 (((cfg0.win 1).blk t).view.emb (rcol j k)) = _
    refine congrArg _ (funext fun a => Fin.ext ?_)
    match a with
    | ⟨0, _⟩ =>
      show win0_1.index t (0 : Fin 2) * 256 + 1 * k.val = k.val
      omega
    | ⟨1, _⟩ =>
      show win0_1.index t (1 : Fin 2) * 128 + 1 * (j 1).val = win0_2.index t (1 : Fin 2) * 128 + 1 * (j 1).val
      omega
  rw [h0, h1]

omit V in
/-- An index of the output array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

omit V in
/-- The blocks tile the rows: row r is in the block of point r / 5000, and every point writes its block back. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After region 0 its output array holds the reference's first dense product of the arrays it was entered with. -/
theorem final0 (c : Dev nD) :
    (dat0 (F := Ideal) V c).arrAt 2 cfg0.N
      = Cert.ReferenceIdeal.ReadP.val_main_v32 (F := Ideal) (V c main_arg0) (V c main_arg2) :=
  (dat0 (F := Ideal) V c).arrAt_eq_of_cover 2 _ (fun t _ => flushed_eq V c t) cover

end Cert.Gcn

end
-- ==== Proof.RefStages.lean ====
/-
  The reference's three dense stages as functions of the arrays that enter them.

  The reference is a two-layer graph convolution with a skip sum and a classifier head. Between its dense
  stages stand the gather / scale / scatter-add aggregations, which the kernel's program applies with the very
  same host operations; so only the dense stages have to be opened. Here each dense stage is written as a
  function of its input ARRAYS, with exactly the operations of the reference's own stages (`ReadP.val_main_v…`),
  and the structural equations say that the reference's nested stages are these functions composed:

    layer agg b      = max (agg + b broadcast along rows, 0)                     -- %46 … %49 and %64 … %67
    dense2 x w       = x · w                                                     -- %50
    logits x1 x2 W c = (x1 + x2) · W + c broadcast along rows                    -- %68 … %72
    logSoftmax z     = (z − rowmax z) − log (Σ over the row of exp (z − rowmax z)) -- the inlined log_softmax
    head x1 agg b W c = logSoftmax (logits x1 (layer agg b) W c)
-/
import proofs.«153216_j91207925498527_1_alg».proof.Proof.RefRead

noncomputable section

namespace Cert.Gcn.Ref

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The tail of one convolution layer: the bias added to every row of the aggregate, then the positive part. -/
def layer (agg : (⟨S100000x128, .f32⟩ : BufTy).Contents (Elt F)) (b : (⟨S128, .f32⟩ : BufTy).Contents (Elt F)) : (⟨S100000x128, .f32⟩ : BufTy).Contents (Elt F) :=
  maximumf (addf agg (val_main_v47 (F := F) b)) (val_main_call1_v0 (F := F))

/-- The second layer's dense product. -/
def dense2 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The classifier's logits of the skip sum. -/
def logits (x1 x2 : (⟨S100000x128, .f32⟩ : BufTy).Contents (Elt F)) (lw : (⟨S128x41, .f32⟩ : BufTy).Contents (Elt F)) (lb : (⟨S41, .f32⟩ : BufTy).Contents (Elt F)) : (⟨S100000x41, .f32⟩ : BufTy).Contents (Elt F) :=
  addf (Host.dotGeneral dot_S100000x128_S128x41_S100000x41_1_0_0_1_n_n none (addf x1 x2) lw) (val_main_v71 (F := F) lb)

/-- Each row's maximum, guarded from below by minus infinity as jax's log_softmax spells it. -/
def rowMax (z : (⟨S100000x41, .f32⟩ : BufTy).Contents (Elt F)) : (⟨S100000, .f32⟩ : BufTy).Contents (Elt F) :=
  maximumf (val_main_call3_v1 (F := F)) (Host.reduce FloatOps.maximumf z (val_main_call3_cst (F := F)) reducesTo_S100000x41_S100000_d1 h_S_)

/-- The logits less their row's maximum. -/
def shifted (z : (⟨S100000x41, .f32⟩ : BufTy).Contents (Elt F)) : (⟨S100000x41, .f32⟩ : BufTy).Contents (Elt F) :=
  subf z (broadcastInDim S100000x41 ![0, 1] bcast_S100000x1_S100000x41_0_1 (broadcastInDim S100000x1 ![0] bcast_S100000_S100000x1_0 (rowMax z)))

/-- Each row's sum of exponentials of the shifted logits. -/
def rowSumExp (z : (⟨S100000x41, .f32⟩ : BufTy).Contents (Elt F)) : (⟨S100000, .f32⟩ : BufTy).Contents (Elt F) :=
  Host.reduceAdd (Host.exp (shifted z)) (val_main_call3_cst_1 (F := F)) reducesTo_S100000x41_S100000_d1 h_S_

/-- The log-softmax of every row. -/
def logSoftmax (z : (⟨S100000x41, .f32⟩ : BufTy).Contents (Elt F)) : (⟨S100000x41, .f32⟩ : BufTy).Contents (Elt F) :=
  subf (shifted z) (broadcastInDim S100000x41 ![0, 1] bcast_S100000x1_S100000x41_0_1 (Host.log (broadcastInDim S100000x1 ![0] bcast_S100000_S100000x1_0 (rowSumExp z))))

/-- The classifier head over the first layer's output and the second layer's aggregate. -/
def head (x1 agg2 : (⟨S100000x128, .f32⟩ : BufTy).Contents (Elt F)) (b2 : (⟨S128, .f32⟩ : BufTy).Contents (Elt F)) (lw : (⟨S128x41, .f32⟩ : BufTy).Contents (Elt F)) (lb : (⟨S41, .f32⟩ : BufTy).Contents (Elt F)) : (⟨S100000x41, .f32⟩ : BufTy).Contents (Elt F) :=
  logSoftmax (logits x1 (layer agg2 b2) lw lb)

section Structure
variable (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F))
  (x5 : (⟨S128, .f32⟩ : BufTy).Contents (Elt F)) (x6 : (⟨S128x41, .f32⟩ : BufTy).Contents (Elt F)) (x7 : (⟨S41, .f32⟩ : BufTy).Contents (Elt F))

/-- The first layer's output is the layer tail of the first aggregate. -/
theorem v49_eq : val_main_v49 (F := F) x0 x1 x2 x3 = layer (val_main_v45 (F := F) x0 x1 x2) x3 := rfl

/-- The second dense product is taken of the first layer's output. -/
theorem v50_eq : val_main_v50 (F := F) x0 x1 x2 x3 x4 = dense2 (val_main_v49 (F := F) x0 x1 x2 x3) x4 := rfl

/-- The second layer's output is the layer tail of the second aggregate (the same operations under other names). -/
theorem v67_eq : val_main_v67 (F := F) x0 x1 x2 x3 x4 x5 = layer (val_main_v63 (F := F) x0 x1 x2 x3 x4) x5 := rfl

/-- The reference's result is the head of the first layer's output and the second aggregate. -/
theorem v73_eq : val_main_v73 (F := F) x0 x1 x2 x3 x4 x5 x6 x7
    = head (val_main_v49 (F := F) x0 x1 x2 x3) (val_main_v63 (F := F) x0 x1 x2 x3 x4) x5 x6 x7 := rfl

end Structure

end Cert.Gcn.Ref

end
-- ==== Proof.Region1.lean ====
/-
  Region 1 (bias, positive part, second dense product), read as whole arrays.

  Grid point t stages rows 5000·t … of the first aggregate, the bias and the weights; it writes back the layer tail
  max(agg + b, 0) of its row block, and the product of that with the weights. The blocks tile the rows, so after the
  region the two output arrays are the reference's layer tail and its second dense product of the arrays found.
-/
import proofs.«153216_j91207925498527_1_alg».proof.Proof.Gen.KernelIdeal.Frame
import proofs.«153216_j91207925498527_1_alg».proof.Proof.RefStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat Cfg Window)

/- the TensorCore's buffer contents when the region is entered -/
variable (V : (c : Dev nD) → (b : Ref sig .tc) → Buf (Elt Ideal) ((c : Thread nD τ).loc b))

namespace Region1

open Idealize.ShloMosaic.ValueIdx

/-! ## The body's two stored values at an index -/

/-- The bias cast to one row and laid along every row of a block reads, at `(p, k)`, its entry `k`. -/
theorem bias_apply (b : Vec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ _ p k).trans (shapeCast_a_1a_apply b _ 0 k)

/-- The first stored value is the positive part of the block plus the bias laid along its rows. -/
theorem pay1_eq (x : Vec Ideal S5000x128 .f32) (b : Vec Ideal S128 .f32) :
    k1_pay1 (F := Ideal) x b
      = maximumf
          (addf (shapeCast S5000x128 x shapeCasts_S5000x128_S5000x128)
            (broadcastTo S5000x128 (shapeCast S1x128 b shapeCasts_S128_S1x128) broadcasts_S1x128_S5000x128))
          (broadcast S5000x128 (Scalar.ofBits .f32 0x00000000#32)) := rfl

/-- The first stored value at row `p`, column `k` of the block: `max (x p k + b k, 0)`. -/
theorem pay1_apply (x : Vec Ideal S5000x128 .f32) (b : Vec Ideal S128 .f32) (p : Fin 5000) (k : Fin 128) :
    k1_pay1 (F := Ideal) x b (ix2 p k) = max (x (ix2 p k) + b (ix1 k)) 0 := by
  rw [pay1_eq, maximumf_apply, addf_apply, bias_apply, shapeCast_self, broadcast_apply]
  exact congrArg (fun c => max (x (ix2 p k) + b (ix1 k)) c) Ideal.ofBits_zero_f32

/-- The left operand's index over output index `i` and contraction index `q` has `i`'s row on axis 0 … -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contraction coordinate on axis 1. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index has the contraction coordinate on axis 0 … -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and `i`'s column on axis 1. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a `[5000, 128]` block with the `[128, 128]` weights, accumulated into zero, at row `p` and column `j`:
    the sum over the 128 contracted positions of the products of the row's entries with the column's. -/
theorem matmul_apply (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p j) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p j) ((ValueIdx.contrEquiv1 dot_S5000x128_S128x128_S5000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- The second stored value is the product of the first with the weights, accumulated into zero. -/
theorem pay2_eq (x : Vec Ideal S5000x128 .f32) (b : Vec Ideal S128 .f32) (w : Vec Ideal S128x128 .f32) :
    k1_pay2 (F := Ideal) x b w
      = matmul dot_S5000x128_S128x128_S5000x128_1_0_0_1_n_n none (truncf .bf16 (k1_pay1 (F := Ideal) x b) bitsLt_bf16_f32)
          (truncf .bf16 w bitsLt_bf16_f32) (constant S5000x128 .f32 0x00000000#32) := rfl

/-- The second stored value at row `p`, column `q` of the block: the product of row `p` of the first stored value with
    column `q` of the weights. -/
theorem pay2_apply (x : Vec Ideal S5000x128 .f32) (b : Vec Ideal S128 .f32) (w : Vec Ideal S128x128 .f32)
    (p : Fin 5000) (q : Fin 128) :
    k1_pay2 (F := Ideal) x b w (ix2 p q) = ∑ k : Fin 128, k1_pay1 (F := Ideal) x b (ix2 p k) * w (ix2 k q) := by
  rw [pay2_eq, matmul_apply]
  refine Finset.sum_congr rfl fun k _ => ?_
  rw [truncf_apply, truncf_apply]

/-! ## The reference's two stages at an index -/

/-- The layer tail at row `r`, column `q`: `max (agg r q + b q, 0)`. -/
theorem layer_apply (agg : (⟨Cert.ReferenceIdeal.S100000x128, .f32⟩ : BufTy).Contents (Elt Ideal))
    (b : (⟨Cert.ReferenceIdeal.S128, .f32⟩ : BufTy).Contents (Elt Ideal)) (r : Fin 100000) (q : Fin 128) :
    Cert.Gcn.Ref.layer (F := Ideal) agg b (ix2 r q) = max (agg (ix2 r q) + b (ix1 q)) 0 := by
  show max (agg (ix2 r q) + Cert.ReferenceIdeal.ReadP.val_main_v47 (F := Ideal) b (ix2 r q))
      (Cert.ReferenceIdeal.ReadP.val_main_call1_v0 (F := Ideal) (ix2 r q)) = _
  rw [Cert.ReferenceIdeal.ReadP.val_main_v47_apply, Cert.ReferenceIdeal.ReadP.val_main_v46_apply,
    Cert.ReferenceIdeal.ReadP.val_main_call1_v0_apply, Cert.ReferenceIdeal.ReadP.val_main_call1_cst_apply]
  have e : Cert.ReferenceIdeal.ReadP.idx_main_v46 (Cert.ReferenceIdeal.ReadP.idx_main_v47 (ix2 r q)) = ix1 q :=
    funext fun a => match a with | ⟨0, _⟩ => rfl
  rw [e]
  exact congrArg (fun c => max (agg (ix2 r q) + b (ix1 q)) c) Ideal.ofBits_zero_f32

/-- The dense product at row `r`, column `q`: the product of row `r` of the left array with column `q` of the weights. -/
theorem dense2_apply (x : (⟨Cert.ReferenceIdeal.S100000x128, .f32⟩ : BufTy).Contents (Elt Ideal))
    (w : (⟨Cert.ReferenceIdeal.S128x128, .f32⟩ : BufTy).Contents (Elt Ideal)) (r : Fin 100000) (q : Fin 128) :
    Cert.Gcn.Ref.dense2 (F := Ideal) x w (ix2 r q) = ∑ k : Fin 128, x (ix2 r k) * w (ix2 k q) := by
  unfold Cert.Gcn.Ref.dense2
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((ValueIdx.contrEquiv1 Cert.ReferenceIdeal.dot_S100000x128_S128x128_S100000x128_1_0_0_1_n_n 128 rfl rfl).symm k) = ix2 r k := funext fun a => Fin.ext (by
    match a with
    | ⟨0, _⟩ => exact Cert.ReferenceIdeal.ReadP.lhs_main_v50_0 _ _
    | ⟨1, _⟩ => exact (Cert.ReferenceIdeal.ReadP.lhs_main_v50_1 _ _).trans hk)
  have er : Cert.ReferenceIdeal.dot_S100000x128_S128x128_S100000x128_1_0_0_1_n_n.rhsIdx (ix2 r q) ((ValueIdx.contrEquiv1 Cert.ReferenceIdeal.dot_S100000x128_S128x128_S100000x128_1_0_0_1_n_n 128 rfl rfl).symm k) = ix2 k q := funext fun a => Fin.ext (by
    match a with
    | ⟨0, _⟩ => exact (Cert.ReferenceIdeal.ReadP.rhs_main_v50_0 _ _).trans hk
    | ⟨1, _⟩ => exact Cert.ReferenceIdeal.ReadP.rhs_main_v50_1 _ _)
  rw [el, er]

/-! ## The windows' blocks at an index -/

/-- The grid has twenty points. -/
theorem N_lt (t : Fin cfg1.N) : t.val < 20 := t.isLt

/-- The printed index maps, decided over the grid: the three row-blocked windows sit at block row `t`, block column 0;
    the bias and the weights at block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of block `t` is row `5000·t + p` of the array. -/
abbrev row (t : Fin cfg1.N) (p : Fin 5000) : Fin 100000 :=
  ⟨t.val * 5000 + p.val, by have ht := N_lt t; have hp := p.isLt; omega⟩

/-- The aggregate's block at point `t`, at `(p, k)`, is the aggregate at row `5000·t + p`, column `k`. -/
theorem iblk0_apply (c : Dev nD) (t : Fin cfg1.N) (p : Fin 5000) (k : Fin 128) :
    iblk1 (F := Ideal) V c 0 t (ix2 p k) = V c main_v45 (ix2 (row t p) k) := by
  obtain ⟨e0, e1, -⟩ := idx_facts t
  show V c main_v45 (((cfg1.win 0).blk t).view.emb (ix2 p k)) = _
  refine congrArg (V c main_v45) (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- The bias's block at any point is the bias. -/
theorem iblk1_apply (c : Dev nD) (t : Fin cfg1.N) (k : Fin 128) :
    iblk1 (F := Ideal) V c 1 t (ix1 k) = V c main_arg3 (ix1 k) := by
  obtain ⟨-, -, e0, -⟩ := idx_facts t
  show V c main_arg3 (((cfg1.win 1).blk t).view.emb (ix1 k)) = _
  refine congrArg (V c main_arg3) (funext fun a => Fin.ext ?_)
  match a with
  | ⟨0, _⟩ => show win1_1.index t (0 : Fin 1) * 128 + 1 * k.val = k.val; rw [e0]; omega

/-- The weights' block at any point is the weights. -/
theorem iblk2_apply (c : Dev nD) (t : Fin cfg1.N) (k q : Fin 128) :
    iblk1 (F := Ideal) V c 2 t (ix2 k q) = V c main_arg4 (ix2 k q) := by
  obtain ⟨-, -, -, e0, e1, -⟩ := idx_facts t
  show V c main_arg4 (((cfg1.win 2).blk t).view.emb (ix2 k q)) = _
  refine congrArg (V c main_arg4) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-! ## What a point writes back -/

theorem hz2 : (![0, 0] : Fin 2 → Nat) = fun _ => 0 := funext fun a => by fin_cases a <;> rfl
theorem hz1 : (![0] : Fin 1 → Nat) = fun _ => 0 := funext fun a => by fin_cases a <;> rfl

/-- THE SHARED ROW FACT: the first stored value of point `t`, at `(p, k)`, is the layer tail of the arrays the region
    finds, at row `5000·t + p`, column `k`. -/
theorem point (c : Dev nD) (t : Fin cfg1.N) (p : Fin 5000) (k : Fin 128) :
    k1_pay1 (F := Ideal) (iblk1 V c 0 t) (iblk1 V c 1 t) (ix2 p k)
      = Cert.Gcn.Ref.layer (F := Ideal) (V c main_v45) (V c main_arg3) (ix2 (row t p) k) := by
  refine (pay1_apply _ _ p k).trans ?_
  refine Eq.trans ?_ (layer_apply _ _ (row t p) k).symm
  rw [iblk0_apply V c t p k, iblk1_apply V c t k]

/-- WHAT POINT `t` WRITES BACK to the first output array is block `t` of the layer tail of the arrays found. -/
theorem flushed3 (c : Dev nD) (t : Fin cfg1.N) :
    (dat1 (F := Ideal) V c).flushed 3 t
      = ((cfg1.win 3).blk t).view.read (Elt Ideal) (Cert.Gcn.Ref.layer (F := Ideal) (V c main_v45) (V c main_arg3)) := by
  show (cfg1.win 3).cut (grid1.coords t) ((dat1 (F := Ideal) V c).after 3 t) = _
  rw [after1_3]
  unfold out1_3
  rw [View.canon_unit_zero hz2]
  simp only [View.ld_unit_zero (S := S5000x128) hz2, View.ld_unit_zero (S := S128) hz1]
  funext j
  obtain ⟨p, q, rfl⟩ : ∃ (p : Fin 5000) (q : Fin 128), j = ix2 p q :=
    ⟨⟨(j 0).val, (j 0).isLt⟩, ⟨(j 1).val, (j 1).isLt⟩, funext fun a => match a with | ⟨0, _⟩ => rfl | ⟨1, _⟩ => rfl⟩
  obtain ⟨-, -, -, -, -, e0, e1, -⟩ := idx_facts t
  show k1_pay1 (F := Ideal) (iblk1 V c 0 t) (iblk1 V c 1 t) (ix2 p q)
      = Cert.Gcn.Ref.layer (F := Ideal) (V c main_v45) (V c main_arg3) (((cfg1.win 3).blk t).view.emb (ix2 p q))
  refine (point V c t p q).trans
    (congrArg (Cert.Gcn.Ref.layer (F := Ideal) (V c main_v45) (V c main_arg3)) (funext fun a => Fin.ext ?_)).symm
  match a with
  | ⟨0, _⟩ => show win1_3.index t (0 : Fin 2) * 5000 + 1 * p.val = t.val * 5000 + p.val; rw [e0]; omega
  | ⟨1, _⟩ => show win1_3.index t (1 : Fin 2) * 128 + 1 * q.val = q.val; rw [e1]; omega

/-- WHAT POINT `t` WRITES BACK to the second output array is block `t` of the dense product of that layer tail with the
    weights found: each row of the product reads one row of the layer tail, which is the row the point computed. -/
theorem flushed4 (c : Dev nD) (t : Fin cfg1.N) :
    (dat1 (F := Ideal) V c).flushed 4 t
      = ((cfg1.win 4).blk t).view.read (Elt Ideal)
          (Cert.Gcn.Ref.dense2 (F := Ideal) (Cert.Gcn.Ref.layer (F := Ideal) (V c main_v45) (V c main_arg3)) (V c main_arg4)) := by
  show (cfg1.win 4).cut (grid1.coords t) ((dat1 (F := Ideal) V c).after 4 t) = _
  rw [after1_4]
  unfold out1_4
  rw [View.canon_unit_zero hz2]
  simp only [View.ld_unit_zero (S := S5000x128) hz2, View.ld_unit_zero (S := S128) hz1,
    View.ld_unit_zero (S := S128x128) hz2]
  funext j
  obtain ⟨p, q, rfl⟩ : ∃ (p : Fin 5000) (q : Fin 128), j = ix2 p q :=
    ⟨⟨(j 0).val, (j 0).isLt⟩, ⟨(j 1).val, (j 1).isLt⟩, funext fun a => match a with | ⟨0, _⟩ => rfl | ⟨1, _⟩ => rfl⟩
  obtain ⟨-, -, -, -, -, -, -, e0, e1⟩ := idx_facts t
  show k1_pay2 (F := Ideal) (iblk1 V c 0 t) (iblk1 V c 1 t) (iblk1 V c 2 t) (ix2 p q)
      = Cert.Gcn.Ref.dense2 (F := Ideal) (Cert.Gcn.Ref.layer (F := Ideal) (V c main_v45) (V c main_arg3)) (V c main_arg4)
          (((cfg1.win 4).blk t).view.emb (ix2 p q))
  have hemb : ((cfg1.win 4).blk t).view.emb (ix2 p q) = ix2 (row t p) q := funext fun a => Fin.ext (by
    match a with
    | ⟨0, _⟩ => show win1_4.index t (0 : Fin 2) * 5000 + 1 * p.val = t.val * 5000 + p.val; rw [e0]; omega
    | ⟨1, _⟩ => show win1_4.index t (1 : Fin 2) * 128 + 1 * q.val = q.val; rw [e1]; omega)
  refine Eq.trans ?_ (congrArg
    (Cert.Gcn.Ref.dense2 (F := Ideal) (Cert.Gcn.Ref.layer (F := Ideal) (V c main_v45) (V c main_arg3)) (V c main_arg4)) hemb).symm
  refine (pay2_apply _ _ _ p q).trans ?_
  refine Eq.trans ?_ (dense2_apply _ _ (row t p) q).symm
  refine Finset.sum_congr rfl fun k _ => ?_
  rw [point V c t p k, iblk2_apply V c t k q]

/-! ## The blocks tile the rows -/

/-- An index of the first output array is in point `t`'s block iff each coordinate is in the block's range on its axis. -/
theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v46_0).slice (win1_3.rect t)).set ↔ _
  rw [View.set_slice_whole, Rect.mem_set_unit]
  exact Iff.rfl

/-- The same for the second output array. -/
theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46_1).slice (win1_4.rect t)).set ↔ _
  rw [View.set_slice_whole, Rect.mem_set_unit]
  exact Iff.rfl

/-- Row `r` lies in the block of point `r / 5000`, which writes back: the first output array is covered. -/
theorem cover3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := by show (i 0).val / 5000 < 20; omega
  obtain ⟨-, -, -, -, -, e0, e1, -⟩ := idx_facts ⟨(i 0).val / 5000, hN⟩
  have e0' : win1_3.index ⟨(i 0).val / 5000, hN⟩ (0 : Fin 2) = (i 0).val / 5000 := e0
  refine ⟨⟨(i 0).val / 5000, hN⟩, flush1_3 _, ?_⟩
  rw [mem_blk3]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e0']; omega
  | ⟨1, _⟩ =>
    show win1_3.index ⟨(i 0).val / 5000, hN⟩ (1 : Fin 2) * 128 ≤ (i 1).val
      ∧ (i 1).val < win1_3.index ⟨(i 0).val / 5000, hN⟩ (1 : Fin 2) * 128 + 128
    rw [e1]; omega

/-- The second output array is covered the same way. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by show (i 0).val / 5000 < 20; omega
  obtain ⟨-, -, -, -, -, -, -, e0, e1⟩ := idx_facts ⟨(i 0).val / 5000, hN⟩
  have e0' : win1_4.index ⟨(i 0).val / 5000, hN⟩ (0 : Fin 2) = (i 0).val / 5000 := e0
  refine ⟨⟨(i 0).val / 5000, hN⟩, flush1_4 _, ?_⟩
  rw [mem_blk4]
  intro a
  match a with
  | ⟨0, _⟩ =>
    show win1_4.index ⟨(i 0).val / 5000, hN⟩ (0 : Fin 2) * 5000 ≤ (i 0).val
      ∧ (i 0).val < win1_4.index ⟨(i 0).val / 5000, hN⟩ (0 : Fin 2) * 5000 + 5000
    rw [e0']; omega
  | ⟨1, _⟩ =>
    show win1_4.index ⟨(i 0).val / 5000, hN⟩ (1 : Fin 2) * 128 ≤ (i 1).val
      ∧ (i 1).val < win1_4.index ⟨(i 0).val / 5000, hN⟩ (1 : Fin 2) * 128 + 128
    rw [e1]; omega

/-! ## The two arrays after the region -/

end Region1

/-- After region 1 its first output array holds the layer tail of the aggregate and bias it was entered with. -/
theorem final1_x1 (c : Dev nD) :
    (dat1 (F := Ideal) V c).arrAt 3 cfg1.N
      = Cert.Gcn.Ref.layer (F := Ideal) (V c main_v45) (V c main_arg3) := by
  exact (dat1 (F := Ideal) V c).arrAt_eq_of_cover 3 _ (fun t _ => Region1.flushed3 V c t) (fun i => Region1.cover3 i)

/-- After region 1 its second output array holds the dense product of that layer tail with the weights. -/
theorem final1_h2 (c : Dev nD) :
    (dat1 (F := Ideal) V c).arrAt 4 cfg1.N
      = Cert.Gcn.Ref.dense2 (F := Ideal) (Cert.Gcn.Ref.layer (F := Ideal) (V c main_v45) (V c main_arg3)) (V c main_arg4) := by
  exact (dat1 (F := Ideal) V c).arrAt_eq_of_cover 4 _ (fun t _ => Region1.flushed4 V c t) (fun i => Region1.cover4 i)

end Cert.Gcn

end
-- ==== Proof.RowSpec.lean ====
/-
  One row of the classifier head, on the extended reals.

  Both programs compute each output row from the same row of inputs alone:
    logit q        = Σ over k < 128 of (x1 k + max (a k + b k, 0)) · W k q  +  c q
    rowLogSoftmax z q = (z q − M) − log (Σ over k < 41 of exp (z k − M)),   M = the row's maximum, taken from −∞.
  These are the two functions both sides are read against.
-/
import Idealize.ShloMosaic.PureOps.Ideal

noncomputable section

namespace Cert.Gcn

open Idealize.ShloMosaic

/-- The maximum of a row of 41 extended reals, folded from minus infinity. -/
def rowMax41 (z : Fin 41 → EReal) : EReal := (Finset.univ : Finset (Fin 41)).fold max ⊥ z

/-- The log-softmax of one row at position `q`: the row less its maximum, less the logarithm of the sum of the
    exponentials of the row less its maximum. -/
def rowLogSoftmax (z : Fin 41 → EReal) (q : Fin 41) : EReal :=
  (z q - rowMax41 z) - Ideal.log (∑ k : Fin 41, Ideal.exp (z k - rowMax41 z))

/-- One logit of a node: its skip sum `x1 + max (a + b, 0)` against column `q` of the classifier's weights, plus the bias. -/
def logitRow (x1 a b : Fin 128 → EReal) (w : Fin 128 → Fin 41 → EReal) (c : Fin 41 → EReal) (q : Fin 41) : EReal :=
  (∑ k : Fin 128, (x1 k + max (a k + b k) 0) * w k q) + c q

end Cert.Gcn

end
-- ==== Proof.Region2Pay.lean ====
/-
  The body of region 2 at an index: the value it stores at row p, column q of its block is the row-level
  log-softmax of the logits of row p (Proof/RowSpec.lean), a function of row p of its two row-blocked inputs and of
  the whole bias, weights and classifier bias.
-/
import proofs.«153216_j91207925498527_1_alg».proof.Proof.Gen.KernelIdeal.Frame
import proofs.«153216_j91207925498527_1_alg».proof.Proof.RowSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat Cfg Window)

open Idealize.ShloMosaic.ValueIdx

/-! ## Two column layouts read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The classifier's matrix product at an index -/

/-- The left operand's index over output index `i` and contraction index `q` has `i`'s row on axis 0 … -/
theorem lhs_logit_0 (i : S5000x41.Idx) (q : dot_S5000x128_S128x41_S5000x41_1_0_0_1_n_n.contr.Idx) :
    (dot_S5000x128_S128x41_S5000x41_1_0_0_1_n_n.lhsIdx i q 0).val = (i 0).val := by
  unfold DotDims.lhsIdx
  rw [dif_neg (show ¬(0 : Fin S5000x128.rank) ∈ dot_S5000x128_S128x41_S5000x41_1_0_0_1_n_n.lhsBatch by decide), dif_pos (show (0 : Fin S5000x128.rank) ∈ dot_S5000x128_S128x41_S5000x41_1_0_0_1_n_n.lhsNonContracting by decide)]
  rfl
/-- … and the contraction coordinate on axis 1. -/
theorem lhs_logit_1 (i : S5000x41.Idx) (q : dot_S5000x128_S128x41_S5000x41_1_0_0_1_n_n.contr.Idx) :
    (dot_S5000x128_S128x41_S5000x41_1_0_0_1_n_n.lhsIdx i q 1).val = (q ⟨0, by decide⟩).val :=
  dot_S5000x128_S128x41_S5000x41_1_0_0_1_n_n.lhsIdx_val_of_single rfl i q
/-- The right operand's index has the contraction coordinate on axis 0 … -/
theorem rhs_logit_0 (i : S5000x41.Idx) (q : dot_S5000x128_S128x41_S5000x41_1_0_0_1_n_n.contr.Idx) :
    (dot_S5000x128_S128x41_S5000x41_1_0_0_1_n_n.rhsIdx i q 0).val = (q ⟨0, by decide⟩).val :=
  dot_S5000x128_S128x41_S5000x41_1_0_0_1_n_n.rhsIdx_val_of_single rfl i q
/-- … and `i`'s column on axis 1. -/
theorem rhs_logit_1 (i : S5000x41.Idx) (q : dot_S5000x128_S128x41_S5000x41_1_0_0_1_n_n.contr.Idx) :
    (dot_S5000x128_S128x41_S5000x41_1_0_0_1_n_n.rhsIdx i q 1).val = (i 1).val := by
  unfold DotDims.rhsIdx
  rw [dif_neg (show ¬(1 : Fin S128x41.rank) ∈ dot_S5000x128_S128x41_S5000x41_1_0_0_1_n_n.rhsBatch by decide), dif_pos (show (1 : Fin S128x41.rank) ∈ dot_S5000x128_S128x41_S5000x41_1_0_0_1_n_n.rhsNonContracting by decide)]
  rfl

/-- The product of a `[5000, 128]` block with the `[128, 41]` weights, accumulated into zero, at row `p` and column `j`:
    the sum over the 128 contracted positions of the products of the row's entries with the column's. -/
theorem matmul_logit_apply (l : FVec Ideal S5000x128 .bf16) (r : FVec Ideal S128x41 .bf16) (p : Fin 5000) (j : Fin 41) :
    matmul dot_S5000x128_S128x41_S5000x41_1_0_0_1_n_n none l r (constant (F := Ideal) S5000x41 .f32 0x00000000#32) (ix2 p j)
      = ∑ k : Fin 128, l (ix2 p k) * r (ix2 k j) := by
  simp only [matmul]
  rw [Ideal.matmul_constant_zero_apply, ← Equiv.sum_comp (ValueIdx.contrEquiv1 dot_S5000x128_S128x41_S5000x41_1_0_0_1_n_n 128 rfl rfl).symm]
  refine Finset.sum_congr rfl fun k _ => ?_
  have hk := ValueIdx.contrEquiv1_symm_val dot_S5000x128_S128x41_S5000x41_1_0_0_1_n_n 128 rfl rfl k
  have el : dot_S5000x128_S128x41_S5000x41_1_0_0_1_n_n.lhsIdx (ix2 p j) ((ValueIdx.contrEquiv1 dot_S5000x128_S128x41_S5000x41_1_0_0_1_n_n 128 rfl rfl).symm k) = ix2 p k := funext fun a => Fin.ext (by
    match a with
    | ⟨0, _⟩ => exact lhs_logit_0 _ _
    | ⟨1, _⟩ => exact (lhs_logit_1 _ _).trans hk)
  have er : dot_S5000x128_S128x41_S5000x41_1_0_0_1_n_n.rhsIdx (ix2 p j) ((ValueIdx.contrEquiv1 dot_S5000x128_S128x41_S5000x41_1_0_0_1_n_n 128 rfl rfl).symm k) = ix2 k j := funext fun a => Fin.ext (by
    match a with
    | ⟨0, _⟩ => exact (rhs_logit_0 _ _).trans hk
    | ⟨1, _⟩ => exact rhs_logit_1 _ _)
  rw [el, er]

/-! ## The logits of a row -/

/-- The body's logits as a function of the blocks it loads: the skip sum `x1 + max (agg + b2, 0)` against the weights,
    plus the bias laid along every row. -/
def blockLogits (x1 agg : Vec Ideal S5000x128 .f32) (b2 : Vec Ideal S128 .f32) (lw : Vec Ideal S128x41 .f32)
    (lb : Vec Ideal S41 .f32) : FVec Ideal S5000x41 .f32 :=
  addf
    (matmul dot_S5000x128_S128x41_S5000x41_1_0_0_1_n_n none
      (truncf .bf16
        (addf (shapeCast S5000x128 x1 shapeCasts_S5000x128_S5000x128)
          (maximumf
            (addf (shapeCast S5000x128 agg shapeCasts_S5000x128_S5000x128)
              (broadcastTo S5000x128 (shapeCast S1x128 b2 shapeCasts_S128_S1x128) broadcasts_S1x128_S5000x128))
            (broadcast S5000x128 (Scalar.ofBits .f32 0x00000000#32))))
        bitsLt_bf16_f32)
      (truncf .bf16 lw bitsLt_bf16_f32) (constant S5000x41 .f32 0x00000000#32))
    (broadcastTo S5000x41 (shapeCast S1x41 lb shapeCasts_S41_S1x41) broadcasts_S1x41_S5000x41)

/-- A bias of 128 entries cast to one row and laid along every row of a block reads, at `(p, k)`, its entry `k`. -/
theorem bias128_apply (b2 : Vec Ideal S128 .f32) (p : Fin 5000) (k : Fin 128) :
    broadcastTo S5000x128 (shapeCast S1x128 b2 shapeCasts_S128_S1x128) broadcasts_S1x128_S5000x128 (ix2 p k) = b2 (ix1 k) :=
  (broadcastTo_1b_ab_apply _ _ p k).trans (shapeCast_a_1a_apply b2 _ 0 k)

/-- A bias of 41 entries cast to one row and laid along every row of a block reads, at `(p, j)`, its entry `j`. -/
theorem bias41_apply (lb : Vec Ideal S41 .f32) (p : Fin 5000) (j : Fin 41) :
    broadcastTo S5000x41 (shapeCast S1x41 lb shapeCasts_S41_S1x41) broadcasts_S1x41_S5000x41 (ix2 p j) = lb (ix1 j) :=
  (broadcastTo_1b_ab_apply _ _ p j).trans (shapeCast_a_1a_apply lb _ 0 j)

/-- The logits at row `p` and column `j` are the row-level logit of row `p` of the two blocks. -/
theorem blockLogits_apply (x1 agg : Vec Ideal S5000x128 .f32) (b2 : Vec Ideal S128 .f32) (lw : Vec Ideal S128x41 .f32)
    (lb : Vec Ideal S41 .f32) (p : Fin 5000) (j : Fin 41) :
    blockLogits x1 agg b2 lw lb (ix2 p j)
      = logitRow (fun k => x1 (ix2 p k)) (fun k => agg (ix2 p k)) (fun k => b2 (ix1 k))
          (fun k j => lw (ix2 k j)) (fun j => lb (ix1 j)) j := by
  unfold blockLogits logitRow
  rw [addf_apply, matmul_logit_apply, bias41_apply]
  refine congrArg (· + lb (ix1 j)) (Finset.sum_congr rfl fun k _ => ?_)
  rw [truncf_apply, truncf_apply, addf_apply, maximumf_apply, addf_apply, bias128_apply, shapeCast_self, shapeCast_self,
    broadcast_apply]
  exact congrArg (fun c => (x1 (ix2 p k) + max (agg (ix2 p k) + b2 (ix1 k)) c) * lw (ix2 k j)) Ideal.ofBits_zero_f32

/-! ## The row maximum, the row sum, and the log-softmax of a block -/

/-- The index over row `p` with coordinate `k` on the reduced axis is `(p, k)`. -/
theorem lift_row (h : S5000x41.Reduces [1] S5000) (p : Fin 5000) (k : Fin (S5000x41.size 1)) :
    h.lift (ix1 p) k = ix2 p k := by
  funext c
  match c with
  | ⟨0, _⟩ => exact Fin.ext rfl
  | ⟨1, _⟩ => exact Fin.ext rfl

/-- The 32-bit pattern the maximum is folded from is minus infinity. -/
theorem ofBits_negInf_f32 : Ideal.ofBits .f32 0xFF800000#32 = ⊥ := by simp [Ideal.ofBits, Ideal.ieee]

/-- The lane maximum of a block of logits, at row `p`, is the maximum of that row. -/
theorem blockMax_apply (z : FVec Ideal S5000x41 .f32) (p : Fin 5000) :
    multiReduction (F := Ideal) .maximumf [1] S5000 z 0xFF800000#32 reduces_S5000x41_S5000 (.inl rfl) rfl (ix1 p)
      = rowMax41 (fun j => z (ix2 p j)) := by
  refine (Ideal.multiReduction_maximumf_single z 0xFF800000#32 reduces_S5000x41_S5000 (.inl rfl) rfl (ix1 p)).trans ?_
  have hf : (fun k : Fin 41 => z (reduces_S5000x41_S5000.lift (ix1 p) k)) = fun j : Fin 41 => z (ix2 p j) :=
    funext fun k => congrArg z (lift_row _ p k)
  show Finset.fold max (Ideal.ofBits .f32 0xFF800000#32) (fun k : Fin 41 => z (reduces_S5000x41_S5000.lift (ix1 p) k)) Finset.univ
      = Finset.fold max ⊥ (fun j : Fin 41 => z (ix2 p j)) Finset.univ
  rw [ofBits_negInf_f32, hf]

/-- The lane sum of a block, at row `p`, is the sum of that row. -/
theorem blockSum_apply (e : FVec Ideal S5000x41 .f32) (p : Fin 5000) :
    multiReduction (F := Ideal) .add [1] S5000 e 0x00000000#32 reduces_S5000x41_S5000 (.inl rfl) rfl (ix1 p)
      = ∑ k : Fin 41, e (ix2 p k) := by
  refine (Ideal.multiReduction_add_single e _ reduces_S5000x41_S5000 (.inl rfl) rfl (ix1 p)).trans ?_
  exact Finset.sum_congr rfl fun k _ => congrArg e (lift_row _ p k)

/-- A vector of 5000 row values cast to a column and laid along the 41 columns reads, at `(p, q)`, the value of row `p`. -/
theorem column_apply (m : FVec Ideal S5000 .f32) (p : Fin 5000) (q : Fin 41) :
    broadcastTo S5000x41 (shapeCast S5000x1 m shapeCasts_S5000_S5000x1) broadcasts_S5000x1_S5000x41 (ix2 p q) = m (ix1 p) :=
  (broadcastTo_a1_ab_apply _ _ p q).trans (shapeCast_a_a1_apply m _ p 0)

/-- The same with a logarithm taken on the column before it is laid along the columns. -/
theorem logColumn_apply (m : FVec Ideal S5000 .f32) (p : Fin 5000) (q : Fin 41) :
    broadcastTo S5000x41 (log (shapeCast S5000x1 m shapeCasts_S5000_S5000x1)) broadcasts_S5000x1_S5000x41 (ix2 p q)
      = Ideal.log (m (ix1 p)) :=
  (broadcastTo_a1_ab_apply _ _ p q).trans (congrArg Ideal.log (shapeCast_a_a1_apply m _ p 0))

/-- The body's last stretch as a function of the block of logits `z`: every row less its maximum, less the logarithm of
    the row's sum of exponentials. -/
def blockLogSoftmax (z : FVec Ideal S5000x41 .f32) : FVec Ideal S5000x41 .f32 :=
  have m : FVec Ideal S5000 .f32 := multiReduction .maximumf [1] S5000 z 0xFF800000#32 reduces_S5000x41_S5000 (.inl rfl) rfl
  have sh : FVec Ideal S5000x41 .f32 :=
    subf z (broadcastTo S5000x41 (shapeCast S5000x1 m shapeCasts_S5000_S5000x1) broadcasts_S5000x1_S5000x41)
  have sm : FVec Ideal S5000 .f32 := multiReduction .add [1] S5000 (exp sh) 0x00000000#32 reduces_S5000x41_S5000 (.inl rfl) rfl
  subf sh (broadcastTo S5000x41 (log (shapeCast S5000x1 sm shapeCasts_S5000_S5000x1)) broadcasts_S5000x1_S5000x41)

/-- The shifted logits at `(p, q)`: the logit less its row's maximum. -/
theorem shifted_apply (z : FVec Ideal S5000x41 .f32) (p : Fin 5000) (q : Fin 41) :
    subf z (broadcastTo S5000x41 (shapeCast S5000x1
        (multiReduction (F := Ideal) .maximumf [1] S5000 z 0xFF800000#32 reduces_S5000x41_S5000 (.inl rfl) rfl)
        shapeCasts_S5000_S5000x1) broadcasts_S5000x1_S5000x41) (ix2 p q)
      = z (ix2 p q) - rowMax41 (fun j => z (ix2 p j)) := by
  rw [subf_apply, column_apply, blockMax_apply]

/-- The block's log-softmax at `(p, q)` is the row-level log-softmax of row `p`. -/
theorem blockLogSoftmax_apply (z : FVec Ideal S5000x41 .f32) (p : Fin 5000) (q : Fin 41) :
    blockLogSoftmax z (ix2 p q) = rowLogSoftmax (fun j => z (ix2 p j)) q := by
  unfold blockLogSoftmax rowLogSoftmax
  dsimp only
  rw [subf_apply, shifted_apply, logColumn_apply, blockSum_apply]
  refine congrArg (fun s => z (ix2 p q) - rowMax41 (fun j => z (ix2 p j)) - Ideal.log s) (Finset.sum_congr rfl fun k _ => ?_)
  show Ideal.exp _ = _
  rw [shifted_apply]

/-! ## The stored value -/

/-- The body's payload is the block log-softmax of the block logits. -/
theorem pay2_eq (x1 agg : Vec Ideal S5000x128 .f32) (b2 : Vec Ideal S128 .f32) (lw : Vec Ideal S128x41 .f32) (lb : Vec Ideal S41 .f32) :
    k2_pay1 (F := Ideal) x1 agg b2 lw lb = blockLogSoftmax (blockLogits x1 agg b2 lw lb) := rfl

/-- The stored value of region 2's body, read at row `p` and column `q` of the block. -/
theorem pay2_apply (x1 agg : Vec Ideal S5000x128 .f32) (b2 : Vec Ideal S128 .f32) (lw : Vec Ideal S128x41 .f32) (lb : Vec Ideal S41 .f32)
    (p : Fin 5000) (q : Fin 41) :
    k2_pay1 (F := Ideal) x1 agg b2 lw lb (ix2 p q)
      = rowLogSoftmax (logitRow (fun k => x1 (ix2 p k)) (fun k => agg (ix2 p k)) (fun k => b2 (ix1 k))
          (fun k j => lw (ix2 k j)) (fun j => lb (ix1 j))) q := by
  rw [pay2_eq, blockLogSoftmax_apply]
  exact congrArg (fun z => rowLogSoftmax z q) (funext fun j => blockLogits_apply x1 agg b2 lw lb p j)

end Cert.Gcn

end
-- ==== Proof.Region2Ref.lean ====
/-
  The reference's classifier head at an index: at node r and class q it is the row-level log-softmax of the logits of
  row r (Proof/RowSpec.lean), a function of row r of the first layer's output and of the second aggregate and of the
  whole bias, weights and classifier bias.
-/
import proofs.«153216_j91207925498527_1_alg».proof.Proof.RefStages
import proofs.«153216_j91207925498527_1_alg».proof.Proof.RowSpec
import Idealize.ShloMosaic.Lib.Pipeline.Value
import Idealize.ShloMosaic.Lib.ValueIdx
import Idealize.ShloMosaic.PureOps.Ideal.Laws
import Idealize.ShloMosaic.PureOps.Reduce

noncomputable section

namespace Cert.Gcn.Ref

open Cert.ReferenceIdeal Cert.ReferenceIdeal.Gen Cert.ReferenceIdeal.ReadP Idealize.ShloMosaic Idealize.ShloMosaic.TcCoe Idealize.SL.Sem
open Idealize.ShloMosaic.ValueIdx

/-! ## The stages one at a time

Each stage of the head is read at one index from the array that enters it, which is a variable here. -/

/-- The layer tail at (r, k): the aggregate plus the bias's k-th entry, cut below at zero. -/
theorem layer_apply (agg : FVec Ideal S100000x128 .f32) (b : FVec Ideal S128 .f32)
    (r : Fin 100000) (k : Fin 128) :
    layer (F := Ideal) agg b (ix2 r k) = max (agg (ix2 r k) + b (ix1 k)) 0 := by
  show (FloatOps.maximumf (FloatOps.addf (agg (ix2 r k)) (val_main_v47 (F := Ideal) b (ix2 r k))) (val_main_call1_v0 (F := Ideal) (ix2 r k)) : Ideal .f32) = _
  rw [val_main_v47_apply, val_main_v46_apply, val_main_call1_v0_apply, val_main_call1_cst_apply]
  simp only [Ideal.maximumf_def, Ideal.addf_def, Ideal.ofBits_def, Ideal.ofBits_zero_f32]
  refine congrArg (fun t => max (agg (ix2 r k) + b t) 0) (funext fun a => ?_)
  match a with
  | ⟨0, _⟩ => rfl

/-- The classifier's product at (r, j) is the sum over the 128 features of row r against column j. -/
theorem dot41_apply (y : FVec Ideal S100000x128 .f32) (w : FVec Ideal S128x41 .f32)
    (i : S100000x41.Idx) :
    Host.dotGeneral (F := Ideal) dot_S100000x128_S128x41_S100000x41_1_0_0_1_n_n none y w i
      = ∑ k : Fin 128, y (lidx_main_v69 i k) * w (ridx_main_v69 i k) := by
  simp only [Host.dotGeneral]
  rw [Ideal.dotGeneral_apply, ← Equiv.sum_comp (ValueIdx.contrEquiv1 dot_S100000x128_S128x41_S100000x41_1_0_0_1_n_n 128 rfl rfl).symm]
  refine Finset.sum_congr rfl fun k _ => ?_
  have hk := ValueIdx.contrEquiv1_symm_val dot_S100000x128_S128x41_S100000x41_1_0_0_1_n_n 128 rfl rfl k
  have el : dot_S100000x128_S128x41_S100000x41_1_0_0_1_n_n.lhsIdx i ((ValueIdx.contrEquiv1 dot_S100000x128_S128x41_S100000x41_1_0_0_1_n_n 128 rfl rfl).symm k) = lidx_main_v69 i k := funext fun a => Fin.ext (by
    match a with
    | ⟨0, _⟩ => exact lhs_main_v69_0 _ _
    | ⟨1, _⟩ => exact (lhs_main_v69_1 _ _).trans hk)
  have er : dot_S100000x128_S128x41_S100000x41_1_0_0_1_n_n.rhsIdx i ((ValueIdx.contrEquiv1 dot_S100000x128_S128x41_S100000x41_1_0_0_1_n_n 128 rfl rfl).symm k) = ridx_main_v69 i k := funext fun a => Fin.ext (by
    match a with
    | ⟨0, _⟩ => exact (rhs_main_v69_0 _ _).trans hk
    | ⟨1, _⟩ => exact rhs_main_v69_1 _ _)
  rw [el, er]

/-- The logits at (r, j): the skip sum of row r against column j of the weights, plus the j-th bias. -/
theorem logits_apply (x1 x2 : FVec Ideal S100000x128 .f32) (lw : FVec Ideal S128x41 .f32)
    (lb : FVec Ideal S41 .f32) (r : Fin 100000) (j : Fin 41) :
    logits (F := Ideal) x1 x2 lw lb (ix2 r j) = (∑ k : Fin 128, (x1 (ix2 r k) + x2 (ix2 r k)) * lw (ix2 k j)) + lb (ix1 j) := by
  show (FloatOps.addf (Host.dotGeneral (F := Ideal) dot_S100000x128_S128x41_S100000x41_1_0_0_1_n_n none (addf x1 x2) lw (ix2 r j))
      (val_main_v71 (F := Ideal) lb (ix2 r j)) : Ideal .f32) = _
  rw [dot41_apply, val_main_v71_apply, val_main_v70_apply, Ideal.addf_def]
  refine congrArg₂ (· + ·) (Finset.sum_congr rfl fun k _ => ?_) (congrArg lb (funext fun a => ?_))
  · have e1 : lidx_main_v69 (ix2 r j) k = ix2 r k := funext fun a => by
      match a with
      | ⟨0, _⟩ => rfl
      | ⟨1, _⟩ => rfl
    have e2 : ridx_main_v69 (ix2 r j) k = ix2 k j := funext fun a => by
      match a with
      | ⟨0, _⟩ => rfl
      | ⟨1, _⟩ => rfl
    rw [e1, e2]
    rfl
  · match a with
    | ⟨0, _⟩ => rfl

/-- The reduced index r with the column k put back is (r, k). -/
theorem lift_node (h : S100000x41.Reduces [1] S100000) (r : Fin 100000) (k : Fin (S100000x41.size 1)) :
    h.lift (ix1 r) k = ix2 r (⟨k.val, k.isLt⟩ : Fin 41) := by
  funext c
  apply Fin.ext
  match c with
  | ⟨0, _⟩ => rfl
  | ⟨1, _⟩ => rfl

/-- The 32-bit pattern the maximum is folded from is minus infinity. -/
theorem ofBits_negInf : Ideal.ofBits .f32 0xFF800000#32 = (⊥ : EReal) := by
  simp [Ideal.ofBits, Ideal.ieee]

/-- The host's maximum along row r, folded from minus infinity, is the maximum of the row's 41 entries. -/
theorem hostRowMax_apply (z : FVec Ideal S100000x41 .f32) (r : Fin 100000) :
    Host.reduce FloatOps.maximumf z (val_main_call3_cst (F := Ideal)) reducesTo_S100000x41_S100000_d1 h_S_ (ix1 r)
      = Cert.Gcn.rowMax41 (fun k => z (ix2 r k)) := by
  have h : S100000x41.Reduces [1] S100000 := by decide
  refine (Host.reduce_eq_fold_single FloatOps.maximumf z _ reducesTo_S100000x41_S100000_d1 h h_S_ (ix1 r)).trans ?_
  rw [val_main_call3_cst_apply, Ideal.ofBits_def, ofBits_negInf]
  have hf : (z ∘ h.lift (ix1 r)) = fun k : Fin 41 => z (ix2 r k) := funext fun k => congrArg z (lift_node h r k)
  unfold Cert.Gcn.rowMax41
  exact congrArg (fun f => Finset.fold max (⊥ : EReal) f (Finset.univ : Finset (Fin 41))) hf

/-- Each row's maximum, folded from minus infinity; the outer guard by minus infinity changes nothing. -/
theorem rowMax_apply (z : FVec Ideal S100000x41 .f32) (r : Fin 100000) :
    rowMax (F := Ideal) z (ix1 r) = Cert.Gcn.rowMax41 (fun k => z (ix2 r k)) := by
  unfold rowMax
  rw [maximumf_apply, val_main_call3_v1_apply, val_main_call3_cst_0_apply, Ideal.ofBits_def, ofBits_negInf, max_eq_right bot_le]
  exact hostRowMax_apply z r

/-- A column of one entry per node, seen as a 100000 by 1 array, reads at (r, 0) its r-th entry. -/
theorem bcastCol_apply (m : FVec Ideal S100000 .f32) (r : Fin 100000) :
    broadcastInDim S100000x1 ![0] bcast_S100000_S100000x1_0 m (ix2 r (0 : Fin 1)) = m (ix1 r) :=
  broadcastInDim_apply _ bcast_S100000_S100000x1_0 m (ix2 r (0 : Fin 1)) (ix1 r) (fun a => match a with
    | ⟨0, _⟩ => by show r.val = if (100000 : Nat) = 1 then 0 else r.val; rw [if_neg (by decide)])

/-- A 100000 by 1 array spread along the 41 classes reads at (r, q) its entry (r, 0). -/
theorem bcastRow_apply (y : FVec Ideal S100000x1 .f32) (r : Fin 100000) (q : Fin 41) :
    broadcastInDim S100000x41 ![0, 1] bcast_S100000x1_S100000x41_0_1 y (ix2 r q) = y (ix2 r (0 : Fin 1)) :=
  broadcastInDim_apply _ bcast_S100000x1_S100000x41_0_1 y (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-- The shifted logits at (r, q): the entry less its row's maximum. -/
theorem shifted_apply (z : FVec Ideal S100000x41 .f32) (r : Fin 100000) (q : Fin 41) :
    shifted (F := Ideal) z (ix2 r q) = z (ix2 r q) - rowMax (F := Ideal) z (ix1 r) := by
  show (FloatOps.subf (z (ix2 r q)) (broadcastInDim S100000x41 ![0, 1] bcast_S100000x1_S100000x41_0_1
      (broadcastInDim S100000x1 ![0] bcast_S100000_S100000x1_0 (rowMax (F := Ideal) z)) (ix2 r q)) : Ideal .f32) = _
  generalize rowMax (F := Ideal) z = m
  rw [bcastRow_apply, bcastCol_apply, Ideal.subf_def]

/-- The host's sum along row r from zero is the sum of the row's 41 entries. -/
theorem rowSum_apply (e : FVec Ideal S100000x41 .f32) (r : Fin 100000) :
    Host.reduceAdd (F := Ideal) e (val_main_call3_cst_1 (F := Ideal)) reducesTo_S100000x41_S100000_d1 h_S_ (ix1 r)
      = ∑ k : Fin 41, e (ix2 r k) := by
  simp only [Host.reduceAdd, Ideal.hostReduceAdd_def]
  rw [Ideal.hostReduceAdd_single reducesTo_S100000x41_S100000_d1 (by decide), val_main_call3_cst_1_apply, Ideal.ofBits_def,
    Ideal.ofBits_zero_f32, zero_add]
  refine Finset.sum_congr rfl fun k _ => ?_
  exact congrArg e (funext fun a => Fin.ext (by match a with | ⟨0, _⟩ => rfl | ⟨1, _⟩ => rfl))

/-- Each row's sum of the exponentials of its shifted logits. -/
theorem rowSumExp_apply (z : FVec Ideal S100000x41 .f32) (r : Fin 100000) :
    rowSumExp (F := Ideal) z (ix1 r) = ∑ k : Fin 41, Ideal.exp (shifted (F := Ideal) z (ix2 r k)) := by
  unfold rowSumExp
  generalize shifted (F := Ideal) z = s
  rw [rowSum_apply]
  refine Finset.sum_congr rfl fun k _ => ?_
  show (FloatOps.hostUnary .exp (s (ix2 r k)) : Ideal .f32) = _
  rw [Ideal.hostUnary_exp_def]

/-- The log-softmax at (r, q): the shifted logit less the logarithm of its row's sum of exponentials. -/
theorem logSoftmax_apply (z : FVec Ideal S100000x41 .f32) (r : Fin 100000) (q : Fin 41) :
    logSoftmax (F := Ideal) z (ix2 r q) = shifted (F := Ideal) z (ix2 r q) - Ideal.log (rowSumExp (F := Ideal) z (ix1 r)) := by
  unfold logSoftmax
  generalize rowSumExp (F := Ideal) z = m
  generalize shifted (F := Ideal) z = s
  rw [subf_apply, bcastRow_apply]
  show s (ix2 r q) - (FloatOps.hostUnary .log
      (broadcastInDim S100000x1 ![0] bcast_S100000_S100000x1_0 (m : FVec Ideal S100000 .f32) (ix2 r (0 : Fin 1))) : Ideal .f32) = _
  rw [bcastCol_apply, Ideal.hostUnary_log_def]

/-! ## The head -/

/-- The log-softmax of an array of logits at (r, q) is the row-level log-softmax of its row r. -/
theorem logSoftmax_row (z : FVec Ideal S100000x41 .f32) (r : Fin 100000) (q : Fin 41) :
    logSoftmax (F := Ideal) z (ix2 r q) = Cert.Gcn.rowLogSoftmax (fun k => z (ix2 r k)) q := by
  rw [logSoftmax_apply, rowSumExp_apply]
  simp only [shifted_apply, rowMax_apply]
  unfold Cert.Gcn.rowLogSoftmax
  rfl

/-- The reference's head read at node `r` and class `q`. -/
theorem head_apply (x1 agg2 : (⟨S100000x128, .f32⟩ : BufTy).Contents (Elt Ideal)) (b2 : (⟨S128, .f32⟩ : BufTy).Contents (Elt Ideal))
    (lw : (⟨S128x41, .f32⟩ : BufTy).Contents (Elt Ideal)) (lb : (⟨S41, .f32⟩ : BufTy).Contents (Elt Ideal)) (r : Fin 100000) (q : Fin 41) :
    head (F := Ideal) x1 agg2 b2 lw lb (ix2 r q)
      = Cert.Gcn.rowLogSoftmax (Cert.Gcn.logitRow (fun k => x1 (ix2 r k)) (fun k => agg2 (ix2 r k)) (fun k => b2 (ix1 k))
          (fun k j => lw (ix2 k j)) (fun j => lb (ix1 j))) q := by
  unfold head
  rw [logSoftmax_row]
  refine congrArg (fun Z => Cert.Gcn.rowLogSoftmax Z q) (funext fun j => ?_)
  rw [logits_apply]
  unfold Cert.Gcn.logitRow
  simp only [layer_apply]

end Cert.Gcn.Ref

end
-- ==== Proof.Region2.lean ====
/-
  Region 2 (second layer tail, skip sum, classifier, log-softmax), read as a whole array.

  Grid point t stages rows 5000·t … of the first layer's output and of the second aggregate, and the whole bias,
  classifier weights and classifier bias; every row of its block is computed from that row alone, so the block it
  writes back is the row block of the reference's head of the arrays found, and the blocks tile the rows.
-/
import proofs.«153216_j91207925498527_1_alg».proof.Proof.Gen.KernelIdeal.Frame
import proofs.«153216_j91207925498527_1_alg».proof.Proof.Region2Pay
import proofs.«153216_j91207925498527_1_alg».proof.Proof.Region2Ref
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Cert.KernelIdeal Cert.KernelIdeal.Gen
open Idealize.ShloMosaic Idealize.ShloMosaic.TcCoe Idealize.SL.Sem
open Idealize.ShloMosaic.Pipeline (Dat Cfg Window)

open Idealize.ShloMosaic.ValueIdx

/- the TensorCore's buffer contents when the region is entered -/
variable (V : (c : Dev nD) → (b : Ref sig .tc) → Buf (Elt Ideal) ((c : Thread nD τ).loc b))

namespace Region2

/-! ## The index maps over the grid -/

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided over the 20 grid points: the two row-blocked inputs move with the output's row
    block, every column index is 0, the three small operands are staged whole, and the output's row block index stays
    below 20. -/
theorem index_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) < 20 ∧ win2_5.index t (1 : Fin 2) = 0 :=
  (by decide +kernel : ∀ t : Fin grid2.N, _)

/-- Every one of the 20 row blocks is some grid point's. -/
theorem index_onto : ∀ q0 : Fin 20, ∃ t : Fin cfg2.N, win2_5.index t = ![q0.val, 0] :=
  (by decide +kernel : ∀ q0 : Fin 20, ∃ t : Fin grid2.N, win2_5.index t = ![q0.val, 0])

/-! ## The staged blocks as rows of the arrays -/

/-- Window 0's block at point `t`, at `(p, k)`, is the first layer's output at row `5000 · (block index) + p`. -/
theorem block0_apply (c : Dev nD) (t : Fin cfg2.N) (p : Fin 5000) (k : Fin 128) (r : Fin 100000)
    (hr : r.val = win2_5.index t (0 : Fin 2) * 5000 + p.val) :
    (iblk2 (F := Ideal) V c 0 t : Vec Ideal S5000x128 .f32) (ix2 p k) = (V c main_v46_0 : S100000x128.Idx → EReal) (ix2 r k) := by
  obtain ⟨e0, e1, -⟩ := index_facts t
  show V c main_v46_0 (((cfg2.win 0).blk t).view.emb (ix2 p k)) = V c main_v46_0 (ix2 r k)
  refine congrArg (V c main_v46_0) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Window 1's block at point `t`, at `(p, k)`, is the second aggregate at row `5000 · (block index) + p`. -/
theorem block1_apply (c : Dev nD) (t : Fin cfg2.N) (p : Fin 5000) (k : Fin 128) (r : Fin 100000)
    (hr : r.val = win2_5.index t (0 : Fin 2) * 5000 + p.val) :
    (iblk2 (F := Ideal) V c 1 t : Vec Ideal S5000x128 .f32) (ix2 p k) = (V c main_v59 : S100000x128.Idx → EReal) (ix2 r k) := by
  obtain ⟨-, -, e0, e1, -⟩ := index_facts t
  show V c main_v59 (((cfg2.win 1).blk t).view.emb (ix2 p k)) = V c main_v59 (ix2 r k)
  refine congrArg (V c main_v59) (funext fun a => Fin.ext ?_)
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Window 2's block at any point is the whole second-layer bias. -/
theorem block2_apply (c : Dev nD) (t : Fin cfg2.N) (k : Fin 128) :
    (iblk2 (F := Ideal) V c 2 t : Vec Ideal S128 .f32) (ix1 k) = (V c main_arg5 : S128.Idx → EReal) (ix1 k) := by
  obtain ⟨-, -, -, -, e0, -⟩ := index_facts t
  show V c main_arg5 (((cfg2.win 2).blk t).view.emb (ix1 k)) = V c main_arg5 (ix1 k)
  refine congrArg (V c main_arg5) (funext fun a => Fin.ext ?_)
  match a with
  | ⟨0, _⟩ => show win2_2.index t (0 : Fin 1) * 128 + 1 * k.val = k.val; rw [e0]; omega

/-- Window 3's block at any point is the whole classifier weights. -/
theorem block3_apply (c : Dev nD) (t : Fin cfg2.N) (k : Fin 128) (j : Fin 41) :
    (iblk2 (F := Ideal) V c 3 t : Vec Ideal S128x41 .f32) (ix2 k j) = (V c main_arg6 : S128x41.Idx → EReal) (ix2 k j) := by
  obtain ⟨-, -, -, -, -, e0, e1, -⟩ := index_facts t
  show V c main_arg6 (((cfg2.win 3).blk t).view.emb (ix2 k j)) = V c main_arg6 (ix2 k j)
  refine congrArg (V c main_arg6) (funext fun a => Fin.ext ?_)
  match a with
  | ⟨0, _⟩ => show win2_3.index t (0 : Fin 2) * 128 + 1 * k.val = k.val; rw [e0]; omega
  | ⟨1, _⟩ => show win2_3.index t (1 : Fin 2) * 41 + 1 * j.val = j.val; rw [e1]; omega

/-- Window 4's block at any point is the whole classifier bias. -/
theorem block4_apply (c : Dev nD) (t : Fin cfg2.N) (j : Fin 41) :
    (iblk2 (F := Ideal) V c 4 t : Vec Ideal S41 .f32) (ix1 j) = (V c main_arg7 : S41.Idx → EReal) (ix1 j) := by
  obtain ⟨-, -, -, -, -, -, -, e0, -⟩ := index_facts t
  show V c main_arg7 (((cfg2.win 4).blk t).view.emb (ix1 j)) = V c main_arg7 (ix1 j)
  refine congrArg (V c main_arg7) (funext fun a => Fin.ext ?_)
  match a with
  | ⟨0, _⟩ => show win2_4.index t (0 : Fin 1) * 41 + 1 * j.val = j.val; rw [e0]; omega

/-! ## What each point writes back -/

/-- The reference's head of the arrays the region is entered with, as the output window's array. -/
abbrev headOf (c : Dev nD) : Buf (Elt Ideal) ((c : Thread nD τ).loc main_v60) :=
  Cert.Gcn.Ref.head (F := Ideal) (V c main_v46_0) (V c main_v59) (V c main_arg5) (V c main_arg6) (V c main_arg7)

/-- Grid point `t` writes back row block `t` of the head: each row of its block is computed from that row of the two
    row-blocked inputs and the whole small operands, exactly as the reference computes that row. -/
theorem flushed_eq (c : Dev nD) (t : Fin cfg2.N) :
    (dat2 (F := Ideal) V c).flushed 5 t = ((cfg2.win 5).blk t).view.read (Elt Ideal) (headOf V c) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128) zeros1,
    View.ld_unit_zero (S := S128x41) zeros2, View.ld_unit_zero (S := S41) zeros1]
  obtain ⟨-, -, -, -, -, -, -, -, e0, e1⟩ := index_facts t
  funext j
  obtain ⟨p, q, rfl⟩ : ∃ (p : Fin 5000) (q : Fin 41), j = ix2 p q := ⟨j 0, j 1, eq_ix2 j⟩
  have hlt : win2_5.index t (0 : Fin 2) * 5000 + p.val < 100000 := by have := p.isLt; omega
  have hemb : ((cfg2.win 5).blk t).view.emb (ix2 p q)
      = ix2 (⟨win2_5.index t (0 : Fin 2) * 5000 + p.val, hlt⟩ : Fin 100000) q := by
    funext a; apply Fin.ext
    match a with
    | ⟨0, _⟩ => show win2_5.index t (0 : Fin 2) * 5000 + 1 * p.val = win2_5.index t (0 : Fin 2) * 5000 + p.val; omega
    | ⟨1, _⟩ => show win2_5.index t (1 : Fin 2) * 41 + 1 * q.val = q.val; rw [e1]; omega
  show k2_pay1 (F := Ideal) (iblk2 V c 0 t) (iblk2 V c 1 t) (iblk2 V c 2 t) (iblk2 V c 3 t) (iblk2 V c 4 t) (ix2 p q)
      = headOf V c (((cfg2.win 5).blk t).view.emb (ix2 p q))
  rw [hemb, pay2_apply]
  show _ = Cert.Gcn.Ref.head (F := Ideal) (V c main_v46_0) (V c main_v59) (V c main_arg5) (V c main_arg6) (V c main_arg7)
      (ix2 (⟨win2_5.index t (0 : Fin 2) * 5000 + p.val, hlt⟩ : Fin 100000) q)
  rw [Cert.Gcn.Ref.head_apply]
  have h0 : (fun k : Fin 128 => (iblk2 (F := Ideal) V c 0 t : Vec Ideal S5000x128 .f32) (ix2 p k))
      = fun k => (V c main_v46_0 : S100000x128.Idx → EReal) (ix2 (⟨win2_5.index t (0 : Fin 2) * 5000 + p.val, hlt⟩ : Fin 100000) k) :=
    funext fun k => block0_apply V c t p k _ rfl
  have h1 : (fun k : Fin 128 => (iblk2 (F := Ideal) V c 1 t : Vec Ideal S5000x128 .f32) (ix2 p k))
      = fun k => (V c main_v59 : S100000x128.Idx → EReal) (ix2 (⟨win2_5.index t (0 : Fin 2) * 5000 + p.val, hlt⟩ : Fin 100000) k) :=
    funext fun k => block1_apply V c t p k _ rfl
  have h2 : (fun k : Fin 128 => (iblk2 (F := Ideal) V c 2 t : Vec Ideal S128 .f32) (ix1 k))
      = fun k => (V c main_arg5 : S128.Idx → EReal) (ix1 k) := funext fun k => block2_apply V c t k
  have h3 : (fun (k : Fin 128) (j : Fin 41) => (iblk2 (F := Ideal) V c 3 t : Vec Ideal S128x41 .f32) (ix2 k j))
      = fun k j => (V c main_arg6 : S128x41.Idx → EReal) (ix2 k j) := funext fun k => funext fun j => block3_apply V c t k j
  have h4 : (fun j : Fin 41 => (iblk2 (F := Ideal) V c 4 t : Vec Ideal S41 .f32) (ix1 j))
      = fun j => (V c main_arg7 : S41.Idx → EReal) (ix1 j) := funext fun j => block4_apply V c t j
  rw [h0, h1, h2, h3, h4]

/-! ## The blocks tile the rows -/

/-- An index of the output array is in point `t`'s block iff each coordinate is in the block's range on its axis. -/
theorem mem_block (t : Fin cfg2.N) (i : S100000x41.Idx) :
    i ∈ ((cfg2.win 5).blk t).view.set ↔ ∀ a : Fin 2, win2_5.index t a * S5000x41.size a ≤ (i a).val
      ∧ (i a).val < win2_5.index t a * S5000x41.size a + S5000x41.size a := by
  show i ∈ ((View.whole main_v60).slice (win2_5.rect t)).set ↔ _
  rw [View.set_slice_whole, Rect.mem_set_unit]
  exact Iff.rfl

/-- Row `r` lies in the block of the point whose row block index is `r / 5000`. -/
theorem cover (i : S100000x41.Idx) :
    ∃ t : Fin cfg2.N, (cfg2.win 5).flush t = true ∧ i ∈ ((cfg2.win 5).blk t).view.set := by
  have hi0 : (i 0).val < 100000 := (i 0).isLt
  have hi1 : (i 1).val < 41 := (i 1).isLt
  obtain ⟨t, ht⟩ := index_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 41 ≤ (i 1).val ∧ (i 1).val < win2_5.index t (1 : Fin 2) * 41 + 41; omega

end Region2

/-- After region 2 its output array holds the reference's classifier head of the arrays it was entered with. -/
theorem final2 (c : Dev nD) :
    (dat2 (F := Ideal) V c).arrAt 5 cfg2.N
      = Cert.Gcn.Ref.head (F := Ideal) (V c main_v46_0) (V c main_v59) (V c main_arg5) (V c main_arg6) (V c main_arg7) :=
  (dat2 (F := Ideal) V c).arrAt_eq_of_cover 5 (Region2.headOf V c) (fun t _ => Region2.flushed_eq V c t) Region2.cover

end Cert.Gcn

end
-- ==== Proof.KValue.lean ====
/-
  The kernel program's result array as the reference's function of the arguments.

  The program's run leaves every buffer at the last of nine boundary contents (the generated fold `W0 … W8`: a host
  stretch applies its operations, a region replaces its arrays by what its write-backs leave). Walking that fold:
    before region 0 the three shared index and weight vectors (source indices, destination indices, the symmetric
      normalisation) are the reference's stages of the edge list, and the arguments are as launched;
    region 0 leaves the reference's first dense product (Proof/Region0.lean);
    the host stretch after it applies to that product the very operations the reference applies (gather by source,
      scale, scatter-add by destination), so it leaves the reference's first aggregate;
    region 1 leaves the first layer's output and the second dense product (Proof/Region1.lean);
    the next stretch leaves the second aggregate; region 2 leaves the classifier head (Proof/Region2.lean),
  which is the reference's result `val_main_v73` of the eight arguments.
-/
import proofs.«153216_j91207925498527_1_alg».proof.Proof.Gen.KernelIdeal.Frame
import proofs.«153216_j91207925498527_1_alg».proof.Proof.Region0
import proofs.«153216_j91207925498527_1_alg».proof.Proof.Region1
import proofs.«153216_j91207925498527_1_alg».proof.Proof.Region2
import Idealize.ShloMosaic.Lib.StableHlo.Run

set_option maxRecDepth 16384

noncomputable section

namespace Cert.Gcn

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v31 val_main_v32 val_main_v45 val_main_v49 val_main_v50 val_main_v63 val_main_v73)

variable (m : (ℓ : Loc nD τ sig) → Buf (Elt Ideal) ℓ) (ρ : Dev nD → PrngReg)

/-! ## The arguments, as the reference's functions take them -/

abbrev a0 (c : Dev nD) : (⟨Cert.ReferenceIdeal.S100000x256, .f32⟩ : BufTy).Contents (Elt Ideal) := m ((c : Thread nD τ).loc main_arg0)
abbrev a1 (c : Dev nD) : (⟨Cert.ReferenceIdeal.S2x1600000, .i32⟩ : BufTy).Contents (Elt Ideal) := m ((c : Thread nD τ).loc main_arg1)
abbrev a2 (c : Dev nD) : (⟨Cert.ReferenceIdeal.S256x128, .f32⟩ : BufTy).Contents (Elt Ideal) := m ((c : Thread nD τ).loc main_arg2)
abbrev a3 (c : Dev nD) : (⟨Cert.ReferenceIdeal.S128, .f32⟩ : BufTy).Contents (Elt Ideal) := m ((c : Thread nD τ).loc main_arg3)
abbrev a4 (c : Dev nD) : (⟨Cert.ReferenceIdeal.S128x128, .f32⟩ : BufTy).Contents (Elt Ideal) := m ((c : Thread nD τ).loc main_arg4)
abbrev a5 (c : Dev nD) : (⟨Cert.ReferenceIdeal.S128, .f32⟩ : BufTy).Contents (Elt Ideal) := m ((c : Thread nD τ).loc main_arg5)
abbrev a6 (c : Dev nD) : (⟨Cert.ReferenceIdeal.S128x41, .f32⟩ : BufTy).Contents (Elt Ideal) := m ((c : Thread nD τ).loc main_arg6)
abbrev a7 (c : Dev nD) : (⟨Cert.ReferenceIdeal.S41, .f32⟩ : BufTy).Contents (Elt Ideal) := m ((c : Thread nD τ).loc main_arg7)

/-! ## The host stretches, over any contents they are entered with -/

/-- Opens the operations' folds: one rewriting pass that shares subterms, then the folds that pass leaves inside the operand list of
    a concatenate (it does not enter a list), then the typed references' casts. -/
macro "host_results" : tactic => `(tactic| (
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  try simp only [TRef.ofBuf, TRef.toBuf, cast_eq]))

/-- A stretch leaves a buffer it does not write as it found it: no operation of the list has the buffer among its results. -/
macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

section Stretches
variable {F : FTy → Type} [FloatOps F]
variable (X : Valuation τ sig (Elt F))
variable (x0 : (⟨Cert.ReferenceIdeal.S100000x256, .f32⟩ : BufTy).Contents (Elt F)) (x1 : (⟨Cert.ReferenceIdeal.S2x1600000, .i32⟩ : BufTy).Contents (Elt F)) (x2 : (⟨Cert.ReferenceIdeal.S256x128, .f32⟩ : BufTy).Contents (Elt F)) (x3 : (⟨Cert.ReferenceIdeal.S128, .f32⟩ : BufTy).Contents (Elt F)) (x4 : (⟨Cert.ReferenceIdeal.S128x128, .f32⟩ : BufTy).Contents (Elt F))

/-- The stretches before region 0 leave the source indices (with the self loops) at the reference's stage. -/
theorem pre_src (h1 : X (Proc.devRef .tc main_arg1) = x1) :
    StableHlo.after hostOps0_2 (StableHlo.after hostOps0_1 (StableHlo.after hostOps0 X)) (Proc.devRef .tc main_v3) = val_main_v3 (F := F) x1 := by
  subst h1; after_results; rfl

/-- … the destination indices at the reference's stage. -/
theorem pre_dst (h1 : X (Proc.devRef .tc main_arg1) = x1) :
    StableHlo.after hostOps0_2 (StableHlo.after hostOps0_1 (StableHlo.after hostOps0 X)) (Proc.devRef .tc main_v6) = val_main_v6 (F := F) x1 := by
  subst h1; after_results; rfl

/-- … and the symmetric normalisation of every edge at the reference's stage. -/
theorem pre_nrm (h1 : X (Proc.devRef .tc main_arg1) = x1) :
    StableHlo.after hostOps0_2 (StableHlo.after hostOps0_1 (StableHlo.after hostOps0 X)) (Proc.devRef .tc main_v31) = val_main_v31 (F := F) x1 := by
  subst h1; host_results; rfl

/-- They write no argument. -/
theorem pre_keep (b : Ref sig .tc) (hb : b = main_arg0 ∨ b = main_arg2 ∨ b = main_arg3 ∨ b = main_arg4 ∨ b = main_arg5 ∨ b = main_arg6 ∨ b = main_arg7) :
    StableHlo.after hostOps0_2 (StableHlo.after hostOps0_1 (StableHlo.after hostOps0 X)) (Proc.devRef .tc b) = X (Proc.devRef .tc b) := by
  have e2 : StableHlo.after hostOps0_2 (StableHlo.after hostOps0_1 (StableHlo.after hostOps0 X)) (Proc.devRef .tc b)
      = StableHlo.after hostOps0_1 (StableHlo.after hostOps0 X) (Proc.devRef .tc b) := by
    rcases hb with rfl | rfl | rfl | rfl | rfl | rfl | rfl <;> not_written hostOps0_2
  have e1 : StableHlo.after hostOps0_1 (StableHlo.after hostOps0 X) (Proc.devRef .tc b) = StableHlo.after hostOps0 X (Proc.devRef .tc b) := by
    rcases hb with rfl | rfl | rfl | rfl | rfl | rfl | rfl <;> not_written hostOps0_1
  have e0 : StableHlo.after hostOps0 X (Proc.devRef .tc b) = X (Proc.devRef .tc b) := by
    rcases hb with rfl | rfl | rfl | rfl | rfl | rfl | rfl <;> not_written hostOps0
  exact e2.trans (e1.trans e0)

/-- The stretch between regions 0 and 1 applies to a dense product, the index vectors and the normalisation the
    reference's own gather, scaling and scatter-add: it leaves the reference's first aggregate. -/
theorem agg1_of (h32 : X (Proc.devRef .tc main_v32) = val_main_v32 (F := F) x0 x2) (h3 : X (Proc.devRef .tc main_v3) = val_main_v3 (F := F) x1)
    (h6 : X (Proc.devRef .tc main_v6) = val_main_v6 (F := F) x1) (h31 : X (Proc.devRef .tc main_v31) = val_main_v31 (F := F) x1) :
    StableHlo.after hostOps1 X (Proc.devRef .tc main_v45) = val_main_v45 (F := F) x0 x1 x2 := by
  after_results_simp
  rw [h32, h3, h6, h31]
  rfl

/-- It writes none of the buffers read later. -/
theorem mid1_keep (b : Ref sig .tc) (hb : b = main_v3 ∨ b = main_v6 ∨ b = main_v31 ∨ b = main_arg3 ∨ b = main_arg4 ∨ b = main_arg5 ∨ b = main_arg6 ∨ b = main_arg7) :
    StableHlo.after hostOps1 X (Proc.devRef .tc b) = X (Proc.devRef .tc b) := by
  rcases hb with rfl | rfl | rfl | rfl | rfl | rfl | rfl | rfl <;> not_written hostOps1

/-- The stretch between regions 1 and 2 likewise leaves the reference's second aggregate. -/
theorem agg2_of (h50 : X (Proc.devRef .tc main_v46_1) = val_main_v50 (F := F) x0 x1 x2 x3 x4) (h3 : X (Proc.devRef .tc main_v3) = val_main_v3 (F := F) x1)
    (h6 : X (Proc.devRef .tc main_v6) = val_main_v6 (F := F) x1) (h31 : X (Proc.devRef .tc main_v31) = val_main_v31 (F := F) x1) :
    StableHlo.after hostOps2 X (Proc.devRef .tc main_v59) = val_main_v63 (F := F) x0 x1 x2 x3 x4 := by
  after_results_simp
  rw [h50, h3, h6, h31]
  rfl

/-- It writes none of the buffers read later. -/
theorem mid2_keep (b : Ref sig .tc) (hb : b = main_v46_0 ∨ b = main_arg5 ∨ b = main_arg6 ∨ b = main_arg7) :
    StableHlo.after hostOps2 X (Proc.devRef .tc b) = X (Proc.devRef .tc b) := by
  rcases hb with rfl | rfl | rfl | rfl <;> not_written hostOps2

end Stretches

/-! ## The walk through the boundary contents, at the extended reals -/

section Walk
variable (c : Dev nD)

/-! ### Region 0's entry: the arguments as launched, the shared vectors at the reference's stages -/

theorem W3_keep (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c : Thread nD τ).loc b) :=
  pre_keep (W0 m ρ c) b hb
theorem W3_src : W3 m ρ c (Proc.devRef .tc main_v3) = val_main_v3 (F := Ideal) (a1 m c) := pre_src (W0 m ρ c) (a1 m c) rfl
theorem W3_dst : W3 m ρ c (Proc.devRef .tc main_v6) = val_main_v6 (F := Ideal) (a1 m c) := pre_dst (W0 m ρ c) (a1 m c) rfl
theorem W3_nrm : W3 m ρ c (Proc.devRef .tc main_v31) = val_main_v31 (F := Ideal) (a1 m c) := pre_nrm (W0 m ρ c) (a1 m c) rfl

/-! ### Region 0's exit: the first dense product; everything else as entered -/

theorem W4_dense : W4 m ρ c (Proc.devRef .tc main_v32) = val_main_v32 (F := Ideal) (a0 m c) (a2 m c) := by
  have h0 : V3 m ρ c main_arg0 = (a0 m c) := W3_keep m ρ c main_arg0 (by simp)
  have h2 : V3 m ρ c main_arg2 = (a2 m c) := W3_keep m ρ c main_arg2 (by simp)
  refine (W4_arr m ρ c 2).trans ((final0 (V3 m ρ) c).trans ?_)
  rw [h0, h2]
theorem W4_src : W4 m ρ c (Proc.devRef .tc main_v3) = val_main_v3 (F := Ideal) (a1 m c) := (W4_of_ne m ρ c main_v3 (by decide)).trans (W3_src m ρ c)
theorem W4_dst : W4 m ρ c (Proc.devRef .tc main_v6) = val_main_v6 (F := Ideal) (a1 m c) := (W4_of_ne m ρ c main_v6 (by decide)).trans (W3_dst m ρ c)
theorem W4_nrm : W4 m ρ c (Proc.devRef .tc main_v31) = val_main_v31 (F := Ideal) (a1 m c) := (W4_of_ne m ρ c main_v31 (by decide)).trans (W3_nrm m ρ c)
theorem W4_keep (b : Ref sig .tc) (hb : b = main_arg3 ∨ b = main_arg4 ∨ b = main_arg5 ∨ b = main_arg6 ∨ b = main_arg7) :
    W4 m ρ c (Proc.devRef .tc b) = m ((c : Thread nD τ).loc b) := by
  have hne : ∀ w, Pipeline.arrRef spec0 w ≠ b := by rcases hb with rfl | rfl | rfl | rfl | rfl <;> decide
  exact (W4_of_ne m ρ c b hne).trans (W3_keep m ρ c b (by rcases hb with rfl | rfl | rfl | rfl | rfl <;> simp))

/-! ### Region 1's entry: the first aggregate -/

theorem W5_agg : W5 m ρ c (Proc.devRef .tc main_v45) = val_main_v45 (F := Ideal) (a0 m c) (a1 m c) (a2 m c) :=
  agg1_of (W4 m ρ c) (a0 m c) (a1 m c) (a2 m c) (W4_dense m ρ c) (W4_src m ρ c) (W4_dst m ρ c) (W4_nrm m ρ c)
theorem W5_src : W5 m ρ c (Proc.devRef .tc main_v3) = val_main_v3 (F := Ideal) (a1 m c) := (mid1_keep (W4 m ρ c) main_v3 (by simp)).trans (W4_src m ρ c)
theorem W5_dst : W5 m ρ c (Proc.devRef .tc main_v6) = val_main_v6 (F := Ideal) (a1 m c) := (mid1_keep (W4 m ρ c) main_v6 (by simp)).trans (W4_dst m ρ c)
theorem W5_nrm : W5 m ρ c (Proc.devRef .tc main_v31) = val_main_v31 (F := Ideal) (a1 m c) := (mid1_keep (W4 m ρ c) main_v31 (by simp)).trans (W4_nrm m ρ c)
theorem W5_keep (b : Ref sig .tc) (hb : b = main_arg3 ∨ b = main_arg4 ∨ b = main_arg5 ∨ b = main_arg6 ∨ b = main_arg7) :
    W5 m ρ c (Proc.devRef .tc b) = m ((c : Thread nD τ).loc b) :=
  (mid1_keep (W4 m ρ c) b (by rcases hb with rfl | rfl | rfl | rfl | rfl <;> simp)).trans (W4_keep m ρ c b hb)

/-! ### Region 1's exit: the first layer's output and the second dense product -/

theorem W6_x1 : W6 m ρ c (Proc.devRef .tc main_v46_0) = val_main_v49 (F := Ideal) (a0 m c) (a1 m c) (a2 m c) (a3 m c) := by
  have h45 : V5 m ρ c main_v45 = val_main_v45 (F := Ideal) (a0 m c) (a1 m c) (a2 m c) := W5_agg m ρ c
  have h3 : V5 m ρ c main_arg3 = (a3 m c) := W5_keep m ρ c main_arg3 (by simp)
  refine (W6_arr m ρ c 3).trans ((final1_x1 (V5 m ρ) c).trans ?_)
  rw [h45, h3, Cert.Gcn.Ref.v49_eq]
theorem W6_h2 : W6 m ρ c (Proc.devRef .tc main_v46_1) = val_main_v50 (F := Ideal) (a0 m c) (a1 m c) (a2 m c) (a3 m c) (a4 m c) := by
  have h45 : V5 m ρ c main_v45 = val_main_v45 (F := Ideal) (a0 m c) (a1 m c) (a2 m c) := W5_agg m ρ c
  have h3 : V5 m ρ c main_arg3 = (a3 m c) := W5_keep m ρ c main_arg3 (by simp)
  have h4 : V5 m ρ c main_arg4 = (a4 m c) := W5_keep m ρ c main_arg4 (by simp)
  refine (W6_arr m ρ c 4).trans ((final1_h2 (V5 m ρ) c).trans ?_)
  rw [h45, h3, h4, Cert.Gcn.Ref.v50_eq, Cert.Gcn.Ref.v49_eq]
theorem W6_src : W6 m ρ c (Proc.devRef .tc main_v3) = val_main_v3 (F := Ideal) (a1 m c) := (W6_of_ne m ρ c main_v3 (by decide)).trans (W5_src m ρ c)
theorem W6_dst : W6 m ρ c (Proc.devRef .tc main_v6) = val_main_v6 (F := Ideal) (a1 m c) := (W6_of_ne m ρ c main_v6 (by decide)).trans (W5_dst m ρ c)
theorem W6_nrm : W6 m ρ c (Proc.devRef .tc main_v31) = val_main_v31 (F := Ideal) (a1 m c) := (W6_of_ne m ρ c main_v31 (by decide)).trans (W5_nrm m ρ c)
theorem W6_keep (b : Ref sig .tc) (hb : b = main_arg5 ∨ b = main_arg6 ∨ b = main_arg7) :
    W6 m ρ c (Proc.devRef .tc b) = m ((c : Thread nD τ).loc b) := by
  have hne : ∀ w, Pipeline.arrRef spec1 w ≠ b := by rcases hb with rfl | rfl | rfl <;> decide
  exact (W6_of_ne m ρ c b hne).trans (W5_keep m ρ c b (by rcases hb with rfl | rfl | rfl <;> simp))

/-! ### Region 2's entry: the second aggregate -/

theorem W7_agg : W7 m ρ c (Proc.devRef .tc main_v59) = val_main_v63 (F := Ideal) (a0 m c) (a1 m c) (a2 m c) (a3 m c) (a4 m c) :=
  agg2_of (W6 m ρ c) (a0 m c) (a1 m c) (a2 m c) (a3 m c) (a4 m c) (W6_h2 m ρ c) (W6_src m ρ c) (W6_dst m ρ c) (W6_nrm m ρ c)
theorem W7_x1 : W7 m ρ c (Proc.devRef .tc main_v46_0) = val_main_v49 (F := Ideal) (a0 m c) (a1 m c) (a2 m c) (a3 m c) :=
  (mid2_keep (W6 m ρ c) main_v46_0 (by simp)).trans (W6_x1 m ρ c)
theorem W7_keep (b : Ref sig .tc) (hb : b = main_arg5 ∨ b = main_arg6 ∨ b = main_arg7) :
    W7 m ρ c (Proc.devRef .tc b) = m ((c : Thread nD τ).loc b) :=
  (mid2_keep (W6 m ρ c) b (by rcases hb with rfl | rfl | rfl <;> simp)).trans (W6_keep m ρ c b hb)

/-! ### Region 2's exit: the result -/

/-- The result buffer at the last boundary is the reference's result stage of the eight arguments. -/
theorem kernel_result : W8 m ρ c (Proc.devRef .tc main_v60)
    = val_main_v73 (F := Ideal) (a0 m c) (a1 m c) (a2 m c) (a3 m c) (a4 m c) (a5 m c) (a6 m c) (a7 m c) := by
  have h49 : V7 m ρ c main_v46_0 = val_main_v49 (F := Ideal) (a0 m c) (a1 m c) (a2 m c) (a3 m c) := W7_x1 m ρ c
  have h63 : V7 m ρ c main_v59 = val_main_v63 (F := Ideal) (a0 m c) (a1 m c) (a2 m c) (a3 m c) (a4 m c) := W7_agg m ρ c
  have h5 : V7 m ρ c main_arg5 = (a5 m c) := W7_keep m ρ c main_arg5 (by simp)
  have h6 : V7 m ρ c main_arg6 = (a6 m c) := W7_keep m ρ c main_arg6 (by simp)
  have h7 : V7 m ρ c main_arg7 = (a7 m c) := W7_keep m ρ c main_arg7 (by simp)
  refine (W8_arr m ρ c 5).trans ((final2 (V7 m ρ) c).trans ?_)
  rw [h49, h63, h5, h6, h7, Cert.Gcn.Ref.v73_eq]

end Walk

end Cert.Gcn

end
-- ==== Proof.RefValue.lean ====
/-
  The reference's run, read back: every weakly fair execution of its @main terminates with the result buffer at the
  reference's last stage `val_main_v73` of the eight argument arrays, the arguments unchanged.

  The operations' fold is opened stretch by stretch, never as one term: the shared prefix (source and destination
  indices with their self loops, the degree's inverse square roots gathered at both ends of every edge and
  multiplied), then per layer the dense product, the gather / scale / scatter-add aggregation and the layer tail, then
  the classifier head; each stretch's results are named by the stages before the next stretch is opened.
-/
import proofs.«153216_j91207925498527_1_alg».proof.Proof.RefRun
import proofs.«153216_j91207925498527_1_alg».proof.Proof.RefRead
import Idealize.ShloMosaic.Lib.StableHlo.Run

noncomputable section

namespace Cert.Gcn.Ref

open Cert.ReferenceIdeal Cert.ReferenceIdeal.Gen Cert.ReferenceIdeal.ReadP Cert.ReferenceIdeal.ValueP
open Idealize.ShloMosaic Idealize.ShloMosaic.TcCoe Idealize.SL.Sem Idealize.ShloMosaic.StableHlo

variable {F : FTy → Type} [FloatOps F]

/-- The fold of a literal stretch read at one buffer: each operation's result at its own buffer is its function's value, at
    any other buffer what was there; the folds left inside a concatenate's operand list are finished one rewrite at a time,
    and the transports of a called function's typed buffers (identities here) are removed. -/
local macro "eval_stretch" : tactic =>
  `(tactic| (after_results_simp
             repeat (first
               | rw [nullary_result] | rw [unary_result] | rw [binary_result] | rw [ternary_result] | rw [reshape_result]
               | (rw [nullary_result_ne]; rotate_left; decide) | (rw [unary_result_ne]; rotate_left; decide)
               | (rw [binary_result_ne]; rotate_left; decide) | (rw [ternary_result_ne]; rotate_left; decide)
               | (rw [reshape_result_ne]; rotate_left; decide))
             try simp only [TRef.ofBuf, TRef.toBuf, cast_eq]))

/-- The same at a buffer the stretch does not write: what was there. -/
local macro "keep_stretch" : tactic => `(tactic| after_results_simp)

/-- The operations up to the source indices. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The operations from there to the destination indices. -/
abbrev opsB : List (HloOp τ sig (Elt F)) :=
  [ unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The operations from there to the edge weights. -/
abbrev opsC : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)) ]

/-- The first layer's dense product and aggregation. -/
abbrev opsD : List (HloOp τ sig (Elt F)) :=
  [ binary main_arg0 main_arg2 main_v32 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The first layer's tail and the second layer's dense product. -/
abbrev opsE : List (HloOp τ sig (Elt F)) :=
  [ unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf,
    binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The second layer's aggregation. -/
abbrev opsG : List (HloOp τ sig (Elt F)) :=
  [ nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]

/-- The second layer's tail, the skip sum, and the classifier's dense product and bias. -/
abbrev opsH : List (HloOp τ sig (Elt F)) :=
  [ unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf,
    binary main_v49 main_v67 main_v68 (addf : (⟨S100000x128, .f32⟩ : BufTy).Contents (Elt F) → (⟨S100000x128, .f32⟩ : BufTy).Contents (Elt F) → (⟨S100000x128, .f32⟩ : BufTy).Contents (Elt F)),
    binary main_v68 main_arg6 main_v69 ((fun l r => Host.dotGeneral dot_S100000x128_S128x41_S100000x41_1_0_0_1_n_n none l r) : (⟨S100000x128, .f32⟩ : BufTy).Contents (Elt F) → (⟨S128x41, .f32⟩ : BufTy).Contents (Elt F) → (⟨S100000x41, .f32⟩ : BufTy).Contents (Elt F)),
    unary main_arg7 main_v70 (broadcastInDim S1x41 ![1] bcast_S41_S1x41_1 : (⟨S41, .f32⟩ : BufTy).Contents (Elt F) → (⟨S1x41, .f32⟩ : BufTy).Contents (Elt F)),
    unary main_v70 main_v71 (broadcastInDim S100000x41 ![0, 1] bcast_S1x41_S100000x41_0_1 : (⟨S1x41, .f32⟩ : BufTy).Contents (Elt F) → (⟨S100000x41, .f32⟩ : BufTy).Contents (Elt F)),
    binary main_v69 main_v71 main_v72 (addf : (⟨S100000x41, .f32⟩ : BufTy).Contents (Elt F) → (⟨S100000x41, .f32⟩ : BufTy).Contents (Elt F) → (⟨S100000x41, .f32⟩ : BufTy).Contents (Elt F)) ]

/-- The row maximum. -/
abbrev opsK : List (HloOp τ sig (Elt F)) :=
  [ TRef.nullary (TRef.of (T := ⟨S_, .f32⟩) main_call3_cst) (constant S_ .f32 0xFF800000#32),
    TRef.binary (TRef.of (T := ⟨S100000x41, .f32⟩) main_v72) (TRef.of (T := ⟨S_, .f32⟩) main_call3_cst) (TRef.of (T := ⟨S100000, .f32⟩) main_call3_v0) (fun x v => Host.reduce FloatOps.maximumf x v reducesTo_S100000x41_S100000_d1 h_S_) ]

/-- The shifted rows and their exponentials. -/
abbrev opsL : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x41, .f32⟩) main_call3_v4) (broadcastInDim S100000x41 ![0, 1] bcast_S100000x1_S100000x41_0_1),
    TRef.binary (TRef.of (T := ⟨S100000x41, .f32⟩) main_v72) (TRef.of (T := ⟨S100000x41, .f32⟩) main_call3_v4) (TRef.of (T := ⟨S100000x41, .f32⟩) main_call3_v5) subf,
    TRef.unary (TRef.of (T := ⟨S100000x41, .f32⟩) main_call3_v5) (TRef.of (T := ⟨S100000x41, .f32⟩) main_call3_v6) Host.exp ]

/-- The row sums. -/
abbrev opsM : List (HloOp τ sig (Elt F)) :=
  [ TRef.nullary (TRef.of (T := ⟨S_, .f32⟩) main_call3_cst_1) (constant S_ .f32 0x00000000#32),
    TRef.binary (TRef.of (T := ⟨S100000x41, .f32⟩) main_call3_v6) (TRef.of (T := ⟨S_, .f32⟩) main_call3_cst_1) (TRef.of (T := ⟨S100000, .f32⟩) main_call3_v7) (fun x v => Host.reduceAdd x v reducesTo_S100000x41_S100000_d1 h_S_) ]

/-- The result. -/
abbrev opsN : List (HloOp τ sig (Elt F)) :=
  [ TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x41, .f32⟩) main_call3_v10) (broadcastInDim S100000x41 ![0, 1] bcast_S100000x1_S100000x41_0_1),
    TRef.binary (TRef.of (T := ⟨S100000x41, .f32⟩) main_call3_v5) (TRef.of (T := ⟨S100000x41, .f32⟩) main_call3_v10) (TRef.of (T := ⟨S100000x41, .f32⟩) main_v73) subf ]

variable {x0 : (⟨S100000x256, .f32⟩ : BufTy).Contents (Elt F)} {x1 : (⟨S2x1600000, .i32⟩ : BufTy).Contents (Elt F)}
  {x2 : (⟨S256x128, .f32⟩ : BufTy).Contents (Elt F)} {x3 : (⟨S128, .f32⟩ : BufTy).Contents (Elt F)}
  {x4 : (⟨S128x128, .f32⟩ : BufTy).Contents (Elt F)} {x5 : (⟨S128, .f32⟩ : BufTy).Contents (Elt F)}
  {x6 : (⟨S128x41, .f32⟩ : BufTy).Contents (Elt F)} {x7 : (⟨S41, .f32⟩ : BufTy).Contents (Elt F)}

/-- The source indices: the first row of the edge list, then every node once (the self loops). -/
theorem stretchA (X : Valuation τ sig (Elt F))
    (h_arg0 : X (Proc.devRef .tc main_arg0) = x0)
    (h_arg1 : X (Proc.devRef .tc main_arg1) = x1)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7) :
    after (opsA (F := F)) X (Proc.devRef .tc main_v0) = val_main_v0 (F := F)
    ∧ after (opsA (F := F)) X (Proc.devRef .tc main_v3) = val_main_v3 (F := F) x1
    ∧ after (opsA (F := F)) X (Proc.devRef .tc main_arg0) = x0
    ∧ after (opsA (F := F)) X (Proc.devRef .tc main_arg1) = x1
    ∧ after (opsA (F := F)) X (Proc.devRef .tc main_arg2) = x2
    ∧ after (opsA (F := F)) X (Proc.devRef .tc main_arg3) = x3
    ∧ after (opsA (F := F)) X (Proc.devRef .tc main_arg4) = x4
    ∧ after (opsA (F := F)) X (Proc.devRef .tc main_arg5) = x5
    ∧ after (opsA (F := F)) X (Proc.devRef .tc main_arg6) = x6
    ∧ after (opsA (F := F)) X (Proc.devRef .tc main_arg7) = x7 := by
  refine ⟨?_, ?_, ?_, ?_, ?_, ?_, ?_, ?_, ?_, ?_⟩
  · eval_stretch
    rfl
  · eval_stretch
    rw [h_arg1]
    rfl
  · keep_stretch; exact h_arg0
  · keep_stretch; exact h_arg1
  · keep_stretch; exact h_arg2
  · keep_stretch; exact h_arg3
  · keep_stretch; exact h_arg4
  · keep_stretch; exact h_arg5
  · keep_stretch; exact h_arg6
  · keep_stretch; exact h_arg7

/-- The destination indices: the second row of the edge list, then every node once. -/
theorem stretchB (X : Valuation τ sig (Elt F))
    (h_arg0 : X (Proc.devRef .tc main_arg0) = x0)
    (h_arg1 : X (Proc.devRef .tc main_arg1) = x1)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7)
    (h_v0 : X (Proc.devRef .tc main_v0) = val_main_v0 (F := F))
    (h_v3 : X (Proc.devRef .tc main_v3) = val_main_v3 (F := F) x1) :
    after (opsB (F := F)) X (Proc.devRef .tc main_v6) = val_main_v6 (F := F) x1
    ∧ after (opsB (F := F)) X (Proc.devRef .tc main_v3) = val_main_v3 (F := F) x1
    ∧ after (opsB (F := F)) X (Proc.devRef .tc main_arg0) = x0
    ∧ after (opsB (F := F)) X (Proc.devRef .tc main_arg2) = x2
    ∧ after (opsB (F := F)) X (Proc.devRef .tc main_arg3) = x3
    ∧ after (opsB (F := F)) X (Proc.devRef .tc main_arg4) = x4
    ∧ after (opsB (F := F)) X (Proc.devRef .tc main_arg5) = x5
    ∧ after (opsB (F := F)) X (Proc.devRef .tc main_arg6) = x6
    ∧ after (opsB (F := F)) X (Proc.devRef .tc main_arg7) = x7 := by
  refine ⟨?_, ?_, ?_, ?_, ?_, ?_, ?_, ?_, ?_⟩
  · eval_stretch
    rw [h_arg1, h_v0]
    rfl
  · keep_stretch; exact h_v3
  · keep_stretch; exact h_arg0
  · keep_stretch; exact h_arg2
  · keep_stretch; exact h_arg3
  · keep_stretch; exact h_arg4
  · keep_stretch; exact h_arg5
  · keep_stretch; exact h_arg6
  · keep_stretch; exact h_arg7

/-- The edge weights: the in-degree counted by a scatter-add of ones, its inverse square root where positive, gathered at both ends of every edge and multiplied. -/
theorem stretchC (X : Valuation τ sig (Elt F))
    (h_arg0 : X (Proc.devRef .tc main_arg0) = x0)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7)
    (h_v3 : X (Proc.devRef .tc main_v3) = val_main_v3 (F := F) x1)
    (h_v6 : X (Proc.devRef .tc main_v6) = val_main_v6 (F := F) x1) :
    after (opsC (F := F)) X (Proc.devRef .tc main_v31) = val_main_v31 (F := F) x1
    ∧ after (opsC (F := F)) X (Proc.devRef .tc main_v3) = val_main_v3 (F := F) x1
    ∧ after (opsC (F := F)) X (Proc.devRef .tc main_v6) = val_main_v6 (F := F) x1
    ∧ after (opsC (F := F)) X (Proc.devRef .tc main_arg0) = x0
    ∧ after (opsC (F := F)) X (Proc.devRef .tc main_arg2) = x2
    ∧ after (opsC (F := F)) X (Proc.devRef .tc main_arg3) = x3
    ∧ after (opsC (F := F)) X (Proc.devRef .tc main_arg4) = x4
    ∧ after (opsC (F := F)) X (Proc.devRef .tc main_arg5) = x5
    ∧ after (opsC (F := F)) X (Proc.devRef .tc main_arg6) = x6
    ∧ after (opsC (F := F)) X (Proc.devRef .tc main_arg7) = x7 := by
  refine ⟨?_, ?_, ?_, ?_, ?_, ?_, ?_, ?_, ?_, ?_⟩
  · eval_stretch
    rw [h_v6, h_v3]
    rfl
  · keep_stretch; exact h_v3
  · keep_stretch; exact h_v6
  · keep_stretch; exact h_arg0
  · keep_stretch; exact h_arg2
  · keep_stretch; exact h_arg3
  · keep_stretch; exact h_arg4
  · keep_stretch; exact h_arg5
  · keep_stretch; exact h_arg6
  · keep_stretch; exact h_arg7

/-- The first layer's aggregation: the dense product, its rows gathered at the sources, scaled by the edge weights and added up at the destinations. -/
theorem stretchD (X : Valuation τ sig (Elt F))
    (h_arg0 : X (Proc.devRef .tc main_arg0) = x0)
    (h_arg2 : X (Proc.devRef .tc main_arg2) = x2)
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7)
    (h_v3 : X (Proc.devRef .tc main_v3) = val_main_v3 (F := F) x1)
    (h_v6 : X (Proc.devRef .tc main_v6) = val_main_v6 (F := F) x1)
    (h_v31 : X (Proc.devRef .tc main_v31) = val_main_v31 (F := F) x1) :
    after (opsD (F := F)) X (Proc.devRef .tc main_v45) = val_main_v45 (F := F) x0 x1 x2
    ∧ after (opsD (F := F)) X (Proc.devRef .tc main_v3) = val_main_v3 (F := F) x1
    ∧ after (opsD (F := F)) X (Proc.devRef .tc main_v6) = val_main_v6 (F := F) x1
    ∧ after (opsD (F := F)) X (Proc.devRef .tc main_v31) = val_main_v31 (F := F) x1
    ∧ after (opsD (F := F)) X (Proc.devRef .tc main_arg3) = x3
    ∧ after (opsD (F := F)) X (Proc.devRef .tc main_arg4) = x4
    ∧ after (opsD (F := F)) X (Proc.devRef .tc main_arg5) = x5
    ∧ after (opsD (F := F)) X (Proc.devRef .tc main_arg6) = x6
    ∧ after (opsD (F := F)) X (Proc.devRef .tc main_arg7) = x7 := by
  refine ⟨?_, ?_, ?_, ?_, ?_, ?_, ?_, ?_, ?_⟩
  · eval_stretch
    rw [h_arg0, h_arg2, h_v3, h_v31, h_v6]
    rfl
  · keep_stretch; exact h_v3
  · keep_stretch; exact h_v6
  · keep_stretch; exact h_v31
  · keep_stretch; exact h_arg3
  · keep_stretch; exact h_arg4
  · keep_stretch; exact h_arg5
  · keep_stretch; exact h_arg6
  · keep_stretch; exact h_arg7

/-- The first layer's tail (bias, rectifier) and the second layer's dense product. -/
theorem stretchE (X : Valuation τ sig (Elt F))
    (h_arg3 : X (Proc.devRef .tc main_arg3) = x3)
    (h_arg4 : X (Proc.devRef .tc main_arg4) = x4)
    (h_arg5 : X (Proc.devRef .tc main_arg5) = x5)
    (h_arg6 : X (Proc.devRef .tc main_arg6) = x6)
    (h_arg7 : X (Proc.devRef .tc main_arg7) = x7)
    (h_v3 : X (Proc.devRef .tc main_v3) = val_main_v3 (F := F) x1)
    (h_v6 : X (Proc.devRef .tc main_v6) = val_main_v6 (F := F) x1)
    (h_v31 : X (Proc.devRef .tc main_v31) = val_main_v31 (F := F) x1)
    (h_v45 : X (Proc.devRef .tc main_v45) = val_main_v45 (F := F) x0 x1 x2) :
    after (opsE (F := F)) X (Proc.devRef .tc main_v49) = val_main_v49 (F := F) x0 x1 x2 x3
    ∧ after (opsE (F := F)) X (Proc.devRef .tc main_v50) = val_main_v50 (F := F) x0 x1 x2 x3 x4
    ∧ after (opsE (F := F)) X (Proc.devRef .tc main_v3) = val_main_v3 (F := F) x1
    ∧ after (opsE (F := F)) X (Proc.devRef .tc main_v6) = val_main_v6 (F := F) x1
    ∧ after (opsE (F := F)) X (Proc.devRef .tc main_v31) = val_main_v31 (F := F) x1
    ∧ after (opsE (F := F)) X (Proc.devRef .tc main_arg5) = x5
    ∧ after (opsE (F := F)) X (Proc.devRef .tc main_arg6) = x6
    ∧ after (opsE (F := F)) X (Proc.devRef .tc main_arg7) = x7 := by
  refine ⟨?_, ?_, ?_, ?_, ?_, ?_, ?_, ?_⟩
  · eval_stretch
    rw [h_v45, h_arg3]
    rfl
  · eval_stretch
    rw [h_v45, h_arg3, h_arg4]
    rfl
  · keep_stretch; exact h_v3
  · keep_stretch; exact h_v6
  · keep_stretch; exact h_v31
  · keep_stretch; exact h_arg5
  · keep_stretch; exact h_arg6
  · keep_stretch; exact h_arg7

/-- The second layer's aggregation: the rows of its dense product gathered at the sources, scaled by the edge weights and added up at the destinations. -/
theorem stretchG (X : Valuation τ sig (Elt F))
    (h_arg5 : X (Proc.devRef .tc main_arg5) = x5)
    (h_arg6 : X (Proc.devRef .tc main_arg6) = x6)
    (h_arg7 : X (Proc.devRef .tc main_arg7) = x7)
    (h_v3 : X (Proc.devRef .tc main_v3) = val_main_v3 (F := F) x1)
    (h_v6 : X (Proc.devRef .tc main_v6) = val_main_v6 (F := F) x1)
    (h_v31 : X (Proc.devRef .tc main_v31) = val_main_v31 (F := F) x1)
    (h_v49 : X (Proc.devRef .tc main_v49) = val_main_v49 (F := F) x0 x1 x2 x3)
    (h_v50 : X (Proc.devRef .tc main_v50) = val_main_v50 (F := F) x0 x1 x2 x3 x4) :
    after (opsG (F := F)) X (Proc.devRef .tc main_v63) = val_main_v63 (F := F) x0 x1 x2 x3 x4
    ∧ after (opsG (F := F)) X (Proc.devRef .tc main_v49) = val_main_v49 (F := F) x0 x1 x2 x3
    ∧ after (opsG (F := F)) X (Proc.devRef .tc main_arg5) = x5
    ∧ after (opsG (F := F)) X (Proc.devRef .tc main_arg6) = x6
    ∧ after (opsG (F := F)) X (Proc.devRef .tc main_arg7) = x7 := by
  refine ⟨?_, ?_, ?_, ?_, ?_⟩
  · eval_stretch
    rw [h_v3, h_v50, h_v31, h_v6]
    rfl
  · keep_stretch; exact h_v49
  · keep_stretch; exact h_arg5
  · keep_stretch; exact h_arg6
  · keep_stretch; exact h_arg7

/-- The second layer's tail (bias, rectifier), the skip sum, and the classifier's dense product and bias. -/
theorem stretchH (X : Valuation τ sig (Elt F))
    (h_arg5 : X (Proc.devRef .tc main_arg5) = x5)
    (h_arg6 : X (Proc.devRef .tc main_arg6) = x6)
    (h_arg7 : X (Proc.devRef .tc main_arg7) = x7)
    (h_v49 : X (Proc.devRef .tc main_v49) = val_main_v49 (F := F) x0 x1 x2 x3)
    (h_v63 : X (Proc.devRef .tc main_v63) = val_main_v63 (F := F) x0 x1 x2 x3 x4) :
    after (opsH (F := F)) X (Proc.devRef .tc main_v72) = val_main_v72 (F := F) x0 x1 x2 x3 x4 x5 x6 x7 := by
  eval_stretch
  rw [h_arg5, h_v63, h_v49, h_arg6, h_arg7]
  rfl

/-- The row maximum of the logits. -/
theorem stretchK (X : Valuation τ sig (Elt F))
    (h_v72 : X (Proc.devRef .tc main_v72) = val_main_v72 (F := F) x0 x1 x2 x3 x4 x5 x6 x7) :
    after (opsK (F := F)) X (Proc.devRef .tc main_call3_v0) = val_main_call3_v0 (F := F) x0 x1 x2 x3 x4 x5 x6 x7
    ∧ after (opsK (F := F)) X (Proc.devRef .tc main_v72) = val_main_v72 (F := F) x0 x1 x2 x3 x4 x5 x6 x7 := by
  refine ⟨?_, ?_⟩
  · eval_stretch
    rw [h_v72]
    rfl
  · keep_stretch; exact h_v72

/-- The logits with their row maximum taken off, and the exponentials of those. -/
theorem stretchL (X : Valuation τ sig (Elt F))
    (h_v72 : X (Proc.devRef .tc main_v72) = val_main_v72 (F := F) x0 x1 x2 x3 x4 x5 x6 x7)
    (h_call3_v0 : X (Proc.devRef .tc main_call3_v0) = val_main_call3_v0 (F := F) x0 x1 x2 x3 x4 x5 x6 x7) :
    after (opsL (F := F)) X (Proc.devRef .tc main_call3_v5) = val_main_call3_v5 (F := F) x0 x1 x2 x3 x4 x5 x6 x7
    ∧ after (opsL (F := F)) X (Proc.devRef .tc main_call3_v6) = val_main_call3_v6 (F := F) x0 x1 x2 x3 x4 x5 x6 x7 := by
  refine ⟨?_, ?_⟩
  · eval_stretch
    rw [h_v72, h_call3_v0]
    rfl
  · eval_stretch
    rw [h_v72, h_call3_v0]
    rfl

/-- The row sums of the exponentials. -/
theorem stretchM (X : Valuation τ sig (Elt F))
    (h_call3_v5 : X (Proc.devRef .tc main_call3_v5) = val_main_call3_v5 (F := F) x0 x1 x2 x3 x4 x5 x6 x7)
    (h_call3_v6 : X (Proc.devRef .tc main_call3_v6) = val_main_call3_v6 (F := F) x0 x1 x2 x3 x4 x5 x6 x7) :
    after (opsM (F := F)) X (Proc.devRef .tc main_call3_v7) = val_main_call3_v7 (F := F) x0 x1 x2 x3 x4 x5 x6 x7
    ∧ after (opsM (F := F)) X (Proc.devRef .tc main_call3_v5) = val_main_call3_v5 (F := F) x0 x1 x2 x3 x4 x5 x6 x7 := by
  refine ⟨?_, ?_⟩
  · eval_stretch
    rw [h_call3_v6]
    rfl
  · keep_stretch; exact h_call3_v5

/-- The shifted logits less the logarithm of their row's sum of exponentials. -/
theorem stretchN (X : Valuation τ sig (Elt F))
    (h_call3_v5 : X (Proc.devRef .tc main_call3_v5) = val_main_call3_v5 (F := F) x0 x1 x2 x3 x4 x5 x6 x7)
    (h_call3_v7 : X (Proc.devRef .tc main_call3_v7) = val_main_call3_v7 (F := F) x0 x1 x2 x3 x4 x5 x6 x7) :
    after (opsN (F := F)) X (Proc.devRef .tc main_v73) = val_main_v73 (F := F) x0 x1 x2 x3 x4 x5 x6 x7 := by
  eval_stretch
  rw [h_call3_v5, h_call3_v7]
  rfl

/-- The eleven stretches in a row are the whole list. -/
theorem ops_eq : ops (F := F)
    = opsA ++ (opsB ++ (opsC ++ (opsD ++ (opsE ++ (opsG ++ (opsH ++ (opsK ++ (opsL ++ (opsM ++ opsN))))))))) := rfl

/-- The fold over two lines in a row is the fold over the second from the fold over the first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- From any contents whose argument buffers hold `x0 … x7`, the operations leave the last stage of those in the result
    buffer: the stretches in a row, each handing the next the stages it reads. -/
theorem after_stages (V : Valuation τ sig (Elt F))
    (h_arg0 : V (Proc.devRef .tc main_arg0) = x0)
    (h_arg1 : V (Proc.devRef .tc main_arg1) = x1)
    (h_arg2 : V (Proc.devRef .tc main_arg2) = x2)
    (h_arg3 : V (Proc.devRef .tc main_arg3) = x3)
    (h_arg4 : V (Proc.devRef .tc main_arg4) = x4)
    (h_arg5 : V (Proc.devRef .tc main_arg5) = x5)
    (h_arg6 : V (Proc.devRef .tc main_arg6) = x6)
    (h_arg7 : V (Proc.devRef .tc main_arg7) = x7) :
    after (ops (F := F)) V (Proc.devRef .tc main_v73) = val_main_v73 (F := F) x0 x1 x2 x3 x4 x5 x6 x7 := by
  rw [ops_eq]
  simp only [after_app]
  obtain ⟨a_v0, a_v3, a0, a1, a2, a3, a4, a5, a6, a7⟩ := stretchA V h_arg0 h_arg1 h_arg2 h_arg3 h_arg4 h_arg5 h_arg6 h_arg7
  obtain ⟨b_v6, b_v3, b0, b2, b3, b4, b5, b6, b7⟩ := stretchB _ a0 a1 a2 a3 a4 a5 a6 a7 a_v0 a_v3
  obtain ⟨c_v31, c_v3, c_v6, c0, c2, c3, c4, c5, c6, c7⟩ := stretchC _ b0 b2 b3 b4 b5 b6 b7 b_v3 b_v6
  obtain ⟨d_v45, d_v3, d_v6, d_v31, d3, d4, d5, d6, d7⟩ := stretchD _ c0 c2 c3 c4 c5 c6 c7 c_v3 c_v6 c_v31
  obtain ⟨e_v49, e_v50, e_v3, e_v6, e_v31, e5, e6, e7⟩ := stretchE _ d3 d4 d5 d6 d7 d_v3 d_v6 d_v31 d_v45
  obtain ⟨g_v63, g_v49, g5, g6, g7⟩ := stretchG _ e5 e6 e7 e_v3 e_v6 e_v31 e_v49 e_v50
  have h_v72 := stretchH _ g5 g6 g7 g_v49 g_v63
  obtain ⟨k_v0, k_v72⟩ := stretchK _ h_v72
  obtain ⟨l_v5, l_v6⟩ := stretchL _ k_v72 k_v0
  obtain ⟨m_v7, m_v5⟩ := stretchM _ l_v5 l_v6
  exact stretchN _ m_v5 m_v7

/-- What the reference's operations leave in the result buffer: its last stage of the arguments' launch contents. -/
theorem after_result (m : (ℓ : Loc nD τ sig) → Buf (Elt F) ℓ) (c : Dev nD) :
    after (ops (F := F)) (launchContents m c) (Proc.devRef .tc main_v73)
      = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  after_stages (launchContents m c) rfl rfl rfl rfl rfl rfl rfl rfl

set_option maxHeartbeats 4000000 in
/-- No operation writes an argument's buffer. -/
theorem after_arg (m : (ℓ : Loc nD τ sig) → Buf (Elt F) ℓ) (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2)
    ∧ after (ops (F := F)) (launchContents m c) (Proc.devRef .tc main_arg3) = m ((c.tc : Thread nD τ).loc main_arg3)
    ∧ after (ops (F := F)) (launchContents m c) (Proc.devRef .tc main_arg4) = m ((c.tc : Thread nD τ).loc main_arg4)
    ∧ after (ops (F := F)) (launchContents m c) (Proc.devRef .tc main_arg5) = m ((c.tc : Thread nD τ).loc main_arg5)
    ∧ after (ops (F := F)) (launchContents m c) (Proc.devRef .tc main_arg6) = m ((c.tc : Thread nD τ).loc main_arg6)
    ∧ after (ops (F := F)) (launchContents m c) (Proc.devRef .tc main_arg7) = m ((c.tc : Thread nD τ).loc main_arg7) := by
  refine ⟨?_, ?_, ?_, ?_, ?_, ?_, ?_, ?_⟩ <;> (after_results_simp; try rfl)

/-- The reference's run: the result at the last stage of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      obtain ⟨e0, e1, e2, e3, e4, e5, e6, e7⟩ := after_arg (F := F) m c
      exact ⟨(h c main_v73).trans (after_result m c), (h c main_arg0).trans e0, (h c main_arg1).trans e1, (h c main_arg2).trans e2,
        (h c main_arg3).trans e3, (h c main_arg4).trans e4, (h c main_arg5).trans e5, (h c main_arg6).trans e6, (h c main_arg7).trans e7⟩)
    (run_seq scopedRefs_eq scopedSems_eq defs main (fun _ => ops) main_eq (fun _ => ops_sub) m ρ)

end Cert.Gcn.Ref

end
-- ==== Proof.lean ====
/-
  The certificate of a two-layer graph convolution with a skip sum and a log-softmax classifier head, computed by three
  Pallas kernels among host aggregations, against its plain jnp reference: equivalence over the extended reals.

  The kernel program and the reference apply the SAME host operations around their dense stages: the edge list with
  self loops, the symmetric normalisation from the in-degrees, and per layer the gather by source, the scaling and the
  scatter-add by destination. They differ only in the dense stages, which the kernel program computes in three regions
  tiled over the 100000 nodes in 20 blocks of 5000 rows:
    region 0:  x · W1;
    region 1:  x1 = max (agg1 + b1, 0)  and  x1 · W2;
    region 2:  log_softmax ((x1 + max (agg2 + b2, 0)) · W + c).
  On the extended reals each region's output array is the reference's own stage of the arrays the region is entered with
  (Proof/Region0.lean, Region1.lean, Region2.lean: a matrix product is the same finite sum on both sides, the narrowing of
  a product's operands to bf16 is the identity, a row's maximum and sum are the same folds). Threading that through the
  boundaries of the program's run (Proof/KValue.lean) the result buffer ends at the reference's result stage of the eight
  arguments; the reference's run ends there too (Proof/RefValue.lean). No algebraic law beyond these readings is used, so
  the precondition (finite float inputs) is never opened.

  The three frames: the kernel programs' are the generated frame certificates; the reference's is its run with the result
  dropped. The idealization rewrote nothing, so there is nothing to preserve.
-/
import proofs.«153216_j91207925498527_1_alg».proof.Defs
import proofs.«153216_j91207925498527_1_alg».proof.Proof.Gen.Kernel
import proofs.«153216_j91207925498527_1_alg».proof.Proof.Gen.Kernel.Skeleton
import proofs.«153216_j91207925498527_1_alg».proof.Proof.Gen.Kernel.Launch
import proofs.«153216_j91207925498527_1_alg».proof.Proof.Gen.Kernel.Points
import proofs.«153216_j91207925498527_1_alg».proof.Proof.Gen.Kernel.Frame
import proofs.«153216_j91207925498527_1_alg».proof.Proof.Gen.KernelIdeal
import proofs.«153216_j91207925498527_1_alg».proof.Proof.Gen.KernelIdeal.Skeleton
import proofs.«153216_j91207925498527_1_alg».proof.Proof.Gen.KernelIdeal.Launch
import proofs.«153216_j91207925498527_1_alg».proof.Proof.Gen.KernelIdeal.Points
import proofs.«153216_j91207925498527_1_alg».proof.Proof.Gen.KernelIdeal.Frame
import proofs.«153216_j91207925498527_1_alg».proof.Proof.Gen.ReferenceIdeal
import proofs.«153216_j91207925498527_1_alg».proof.Proof.Gen.Pre_finite_inputs
import proofs.«153216_j91207925498527_1_alg».proof.Proof.KRun
import proofs.«153216_j91207925498527_1_alg».proof.Proof.KValue
import proofs.«153216_j91207925498527_1_alg».proof.Proof.RefValue
import Idealize.ShloMosaic.Adequacy
import Idealize.ShloMosaic.Init

noncomputable section

namespace Cert.Proof

open Idealize.ShloMosaic Idealize.SL.Sem

/-- The word-level kernel program terminates without fault and leaves its arguments: the generated frame certificate. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gcn.Ref.run (F := Ideal) m ρ)

/-- The ideal pass rewrote no operation. -/
theorem preserves : Cert.preserves_Kernel_KernelIdeal := trivial

/-- Both programs end with the result buffer at the reference's result stage of the arguments, which agree. -/
theorem algebraic : Cert.algebraic_KernelIdeal_ReferenceIdeal := by
  intro m ρ m' ρ' _ hagree
  refine ⟨fun c => Cert.ReferenceIdeal.ReadP.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Gcn.kernel_result m ρ c), (h c).2⟩)
      (Cert.KernelIdeal.GenP.run_out (F := Ideal) m ρ)
  · refine (θ_run Cert.ReferenceIdeal.defs _ _).mono (fun _ h c => ⟨(h c).1.trans ?_, (h c).2⟩)
      (Cert.Gcn.Ref.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
